-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x768 .f32 .bf16
  ∧ IdealRules.truncf_extf.Statement Cert.KernelIdeal.S256x768 .f32 .bf16
  ∧ IdealRules.truncf_extf.Statement Cert.KernelIdeal.S1024x256 .f32 .bf16
  ∧ IdealRules.truncf_extf.Statement Cert.KernelIdeal.S256x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S1024x768 : Shape := ⟨2, ![1024, 768]⟩
abbrev S1024 : Shape := ⟨1, ![1024]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x768 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x768 .f32 := Host.absf main_arg4
  let main_cst_6 : FVec F S_ .f32 := constant S_ .f32 0x7F800000#32
  let main_v20 : FVec F S1024x768 .f32 := broadcastInDim S1024x768 ![] bcast_S_S1024x768 main_cst_6
  let main_v21 : IVec S1024x768 1 := cmpf .olt main_v19 main_v20
  let main_c_7 : IVec S_ 1 := constantI S_ 1 1#1
  let main_v22 : IVec S_ 1 := (fun x v => Host.reduce IntOp.andi x v reducesTo_S1024x768_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x1024x768 .f32) (main_arg1 : FVec F S16x1024x768 .f32) (main_arg2 : FVec F S1024x768 .f32) (main_arg3 : FVec F S1024 .f32) (main_arg4 : FVec F S1024x768 .f32) (main_arg5 : FVec F S1024 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S16x1024x768 .f32 := Host.absf main_arg1
  let main_cst_0 : FVec F S_ .f32 := constant S_ .f32 0x7F800000#32
  let main_v5 : FVec F S16x1024x768 .f32 := broadcastInDim S16x1024x768 ![] bcast_S_S16x1024x768 main_cst_0
  let main_v6 : IVec S16x1024x768 1 := cmpf .olt main_v4 main_v5
  let main_c_1 : IVec S_ 1 := constantI S_ 1 1#1
  let main_v7 : IVec S_ 1 := (fun x v => Host.reduce IntOp.andi x v reducesTo_S16x1024x768_S_d0_1_2 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16x1024x768 : Shape := ⟨3, ![16, 1024, 768]⟩
abbrev S1024x768 : Shape := ⟨2, ![1024, 768]⟩
abbrev S1024 : Shape := ⟨1, ![1024]⟩
abbrev S1x1024 : Shape := ⟨2, ![1, 1024]⟩
abbrev S1024x1 : Shape := ⟨2, ![1024, 1]⟩
abbrev S16x1024x3072 : Shape := ⟨3, ![16, 1024, 3072]⟩
abbrev S1x1024x768 : Shape := ⟨3, ![1, 1024, 768]⟩
abbrev S1x256x768 : Shape := ⟨3, ![1, 256, 768]⟩
abbrev S1x1024x3072 : Shape := ⟨3, ![1, 1024, 3072]⟩
abbrev S256x768 : Shape := ⟨2, ![256, 768]⟩
abbrev S1x256 : Shape := ⟨2, ![1, 256]⟩
abbrev S1024x256 : Shape := ⟨2, ![1024, 256]⟩
abbrev S1 : Shape := ⟨1, ![1]⟩
abbrev S1x1 : Shape := ⟨2, ![1, 1]⟩

abbrev nBuf : Space → Nat
  | .hbm => 9
  | .vmem => 13
  | .smem => 0
  | _ => 0

abbrev bufTy : (tb : Table) → Fin (tcTables nBuf tb) → BufTy
  | .hbm, ⟨0, _⟩ => ⟨S16x1024x768, .f32⟩
  | .hbm, ⟨1, _⟩ => ⟨S16x1024x768, .f32⟩
  | .hbm, ⟨2, _⟩ => ⟨S1024x768, .f32⟩
  | .hbm, ⟨3, _⟩ => ⟨S1024, .f32⟩
  | .hbm, ⟨4, _⟩ => ⟨S1024x768, .f32⟩
  | .hbm, ⟨5, _⟩ => ⟨S1024, .f32⟩
  | .hbm, ⟨6, _⟩ => ⟨S1x1024, .f32⟩
  | .hbm, ⟨7, _⟩ => ⟨S1024x1, .f32⟩
  | .hbm, ⟨8, _⟩ => ⟨S16x1024x3072, .f32⟩
  | .local _ .vmem, ⟨0, _⟩ => ⟨S1x1024x768, .f32⟩
  | .local _ .vmem, ⟨1, _⟩ => ⟨S1x1024x768, .f32⟩
  | .local _ .vmem, ⟨2, _⟩ => ⟨S1x256x768, .f32⟩
  | .local _ .vmem, ⟨3, _⟩ => ⟨S1x256x768, .f32⟩
  | .local _ .vmem, ⟨4, _⟩ => ⟨S1024x768, .f32⟩
  | .local _ .vmem, ⟨5, _⟩ => ⟨S1x1024, .f32⟩
  | .local _ .vmem, ⟨6, _⟩ => ⟨S1024x768, .f32⟩
  | .local _ .vmem, ⟨7, _⟩ => ⟨S1024x1, .f32⟩
  | .local _ .vmem, ⟨8, _⟩ => ⟨S1x1024x3072, .f32⟩
  | .local _ .vmem, ⟨9, _⟩ => ⟨S1x1024x3072, .f32⟩
  | .local _ .vmem, ⟨10, _⟩ => ⟨S1024x768, .f32⟩
  | .local _ .vmem, ⟨11, _⟩ => ⟨S1024x1, .f32⟩
  | .local _ .vmem, ⟨12, _⟩ => ⟨S1024x1, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 2 → Nat :=
  let arg1 : BitVec 32 := BitVec.ofNat 32 (i 1).val
  let c256_i32 : BitVec 32 := 256#32
  let v7 : BitVec 32 := Scalar.muli arg1 c256_i32
  let v8 : BitVec 32 := v7
  let v9 : Index := Scalar.indexCast v8
  let c0_6 : Index := 0#32
  ![v9.toNat, 0]
def k0_off2 (i : grid0.Coords) : Fin 2 → Nat :=
  let c0_7 : Index := 0#32
  let arg1 : BitVec 32 := BitVec.ofNat 32 (i 1).val
  let c256_i32 : BitVec 32 := 256#32
  let v7 : BitVec 32 := Scalar.muli arg1 c256_i32
  let v8 : BitVec 32 := v7
  let v11 : Index := Scalar.indexCast v8
  ![0, v11.toNat]
def k0_cond2 (i : grid0.Coords) : BitVec 1 :=
  let arg1 : BitVec 32 := BitVec.ofNat 32 (i 1).val
  let c3_i32 : BitVec 32 := 3#32
  let v79 : BitVec 1 := Scalar.cmpi .eq arg1 c3_i32
  let v80 : BitVec 32 := Scalar.extui v79
  let c0_i32_32 : BitVec 32 := 0#32
  let v81 : BitVec 1 := Scalar.cmpi .ne v80 c0_i32_32
  v81

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S1024_S1x1024 : S1024.ShapeCasts S1x1024
  shapeCasts_S1024_S1024x1 : S1024.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  h_S256x768 : 0 < S256x768.numel
  h_S1x256 : 0 < S1x256.numel
  shapeCasts_S1x256_S1x256 : S1x256.ShapeCasts S1x256
  bitsLt_bf16_f32 : FTy.bits .bf16 < FTy.bits .f32
  broadcasts_S1x256_S1024x256 : S1x256.Broadcasts S1024x256
  broadcasts_S1024x1_S1024x256 : S1024x1.Broadcasts S1024x256
  reduces_S1024x256_S1024 : S1024x256.Reduces [1] S1024
  broadcasts_S1024x1_S1024x768 : S1024x1.Broadcasts S1024x768
  reduces_S1024x1_S1 : S1024x1.Reduces [0] S1
  shapeCasts_S1_S1x1 : S1.ShapeCasts S1x1
  broadcasts_S1x1_S1024x1 : S1x1.Broadcasts S1024x1
  inb_S1x1024x3072_S1x1024x768_0_0_0 : ∀ a, (![0, 0, 0] : Fin 3 → Nat) a + S1x1024x768.size a ≤ S1x1024x3072.size a
  shapeCasts_S1024x768_S1x1024x768 : S1024x768.ShapeCasts S1x1024x768
  inb_S1x1024x3072_S1x1024x768_0_0_768 : ∀ a, (![0, 0, 768] : Fin 3 → Nat) a + S1x1024x768.size a ≤ S1x1024x3072.size a
  inb_S1x1024x3072_S1x1024x768_0_0_1536 : ∀ a, (![0, 0, 1536] : Fin 3 → Nat) a + S1x1024x768.size a ≤ S1x1024x3072.size a
  inb_S1x1024x3072_S1x1024x768_0_0_2304 : ∀ a, (![0, 0, 2304] : Fin 3 → Nat) a + S1x1024x768.size a ≤ S1x1024x3072.size a
  dot_S1024x768_S256x768_S1024x256_1_1_0_0_n_n_wf : DotDims.WF S1024x768 S256x768 S1024x256 [1] [1] [0] [0] [] []
  dot_S1024x256_S256x768_S1024x768_1_0_0_1_n_n_wf : DotDims.WF S1024x256 S256x768 S1024x768 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x768.size a ≤ S1024x768.size a
  k0_off2_inb : ∀ i : grid0.Coords, ∀ a, (k0_off2 i) a + S1x256.size a ≤ S1x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .f32 = 32 ∨ (Rect.block (s := S16x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S16x1024x768.size a
  hwx0_1 : ∀ i : grid0.Coords, EltTy.bits .f32 = 32 ∨ (Rect.block (s := S16x1024x768) S1x256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S1024x768.size a
  hwx0_2 : ∀ i : grid0.Coords, EltTy.bits .f32 = 32 ∨ (Rect.block (s := S1024x768) S1024x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x768.size a ≤ S1024x768.size a
  hwx0_4 : ∀ i : grid0.Coords, EltTy.bits .f32 = 32 ∨ (Rect.block (s := S1024x768) S1024x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .f32 = 32 ∨ (Rect.block (s := S1024x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x3072.size a ≤ S16x1024x3072.size a
  hwx0_6 : ∀ i : grid0.Coords, EltTy.bits .f32 = 32 ∨ (Rect.block (s := S16x1024x3072) S1x1024x3072.size (cc0_transform_6 i) (hinb0_6 i)).WholeWords (EltTy.packing .f32)

variable [Facts₀]

def dot_S1024x768_S256x768_S1024x256_1_1_0_0_n_n : DotDims S1024x768 S256x768 S1024x256 where
  lhsContracting := [1]
  rhsContracting := [1]
  lhsNonContracting := [0]
  rhsNonContracting := [0]
  lhsBatch := []
  rhsBatch := []
  wf := dot_S1024x768_S256x768_S1024x256_1_1_0_0_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024x3072.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16x1024x768 : Shape := ⟨3, ![16, 1024, 768]⟩
abbrev S1024x768 : Shape := ⟨2, ![1024, 768]⟩
abbrev S1024 : Shape := ⟨1, ![1024]⟩
abbrev S16x1024x1024 : Shape := ⟨3, ![16, 1024, 1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩
abbrev S16 : Shape := ⟨1, ![16]⟩
abbrev S16x1 : Shape := ⟨2, ![16, 1]⟩
abbrev S16x1024x3072 : Shape := ⟨3, ![16, 1024, 3072]⟩

abbrev nBuf : Space → Nat
  | .hbm => 55
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S16x1024x768, .f32⟩
  | .hbm, ⟨2, _⟩ => ⟨S1024x768, .f32⟩
  | .hbm, ⟨3, _⟩ => ⟨S1024, .f32⟩
  | .hbm, ⟨4, _⟩ => ⟨S1024x768, .f32⟩
  | .hbm, ⟨5, _⟩ => ⟨S1024, .f32⟩
  | .hbm, ⟨6, _⟩ => ⟨S16x1024x1024, .f32⟩
  | .hbm, ⟨7, _⟩ => ⟨S1x1x1024, .f32⟩
  | .hbm, ⟨8, _⟩ => ⟨S16x1024x1024, .f32⟩
  | .hbm, ⟨9, _⟩ => ⟨S16x1024x1024, .f32⟩
  | .hbm, ⟨10, _⟩ => ⟨S16x1024x1024, .f32⟩
  | .hbm, ⟨11, _⟩ => ⟨S1x1x1024, .f32⟩
  | .hbm, ⟨12, _⟩ => ⟨S16x1024x1024, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S_, .f32⟩
  | .hbm, ⟨19, _⟩ => ⟨S16x1024, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S16x1024x1, .f32⟩
  | .hbm, ⟨24, _⟩ => ⟨S16x1024x1024, .f32⟩
  | .hbm, ⟨25, _⟩ => ⟨S16x1024x1024, .f32⟩
  | .hbm, ⟨26, _⟩ => ⟨S16x1024x1024, .f32⟩
  | .hbm, ⟨27, _⟩ => ⟨S_, .f32⟩
  | .hbm, ⟨28, _⟩ => ⟨S16x1024, .f32⟩
  | .hbm, ⟨29, _⟩ => ⟨S16x1024x1, .f32⟩
  | .hbm, ⟨30, _⟩ => ⟨S16x1024x1024, .f32⟩
  | .hbm, ⟨31, _⟩ => ⟨S16x1024x1024, .f32⟩
  | .hbm, ⟨32, _⟩ => ⟨S16x1024x768, .f32⟩
  | .hbm, ⟨33, _⟩ => ⟨S_, .f32⟩
  | .hbm, ⟨34, _⟩ => ⟨S16x1024, .f32⟩
  | .hbm, ⟨35, _⟩ => ⟨S_, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16x1, .f32⟩
  | .hbm, ⟨41, _⟩ => ⟨S16x1024, .f32⟩
  | .hbm, ⟨42, _⟩ => ⟨S16x1024, .f32⟩
  | .hbm, ⟨43, _⟩ => ⟨S16x1024, .f32⟩
  | .hbm, ⟨44, _⟩ => ⟨S_, .f32⟩
  | .hbm, ⟨45, _⟩ => ⟨S16, .f32⟩
  | .hbm, ⟨46, _⟩ => ⟨S16x1, .f32⟩
  | .hbm, ⟨47, _⟩ => ⟨S16x1024, .f32⟩
  | .hbm, ⟨48, _⟩ => ⟨S16x1024, .f32⟩
  | .hbm, ⟨49, _⟩ => ⟨S16x1024x1, .f32⟩
  | .hbm, ⟨50, _⟩ => ⟨S16x1024x768, .f32⟩
  | .hbm, ⟨51, _⟩ => ⟨S16x1024x768, .f32⟩
  | .hbm, ⟨52, _⟩ => ⟨S16x1024x768, .f32⟩
  | .hbm, ⟨53, _⟩ => ⟨S16x1024x768, .f32⟩
  | .hbm, ⟨54, _⟩ => ⟨S16x1024x3072, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  transposes_S16x1024x1024_S16x1024x1024_0_2_1 : S16x1024x1024.Transposes [0, 2, 1] S16x1024x1024
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  reducesTo_S16x1024_S16_d1 : S16x1024.ReducesTo [1] S16
  bcast_S_S16 : S_.BroadcastsInDim S16 (![] : Fin 0 → Fin S16.rank)
  bcast_S16_S16x1_0 : S16.BroadcastsInDim S16x1 (![0] : Fin 1 → Fin S16x1.rank)
  bcast_S16x1_S16x1024_0_1 : S16x1.BroadcastsInDim S16x1024 (![0, 1] : Fin 2 → Fin S16x1024.rank)
  bcast_S16x1024x1_S16x1024x768_0_1_2 : S16x1024x1.BroadcastsInDim S16x1024x768 (![0, 1, 2] : Fin 3 → Fin S16x1024x768.rank)
  concatenates_S16x1024x768_S16x1024x768_S16x1024x768_S16x1024x768_S16x1024x3072_d2 : Shape.Concatenates [S16x1024x768, S16x1024x768, S16x1024x768, S16x1024x768] S16x1024x3072 2
  dot_S16x1024x768_S1024x768_S16x1024x1024_2_1_01_0_n_n_wf : DotDims.WF S16x1024x768 S1024x768 S16x1024x1024 [2] [1] [0, 1] [0] [] []
  dot_S16x1024x768_S16x1024x768_S16x1024x1024_2_2_1_1_0_0_wf : DotDims.WF S16x1024x768 S16x1024x768 S16x1024x1024 [2] [2] [1] [1] [0] [0]
  dot_S16x1024x1024_S16x1024x768_S16x1024x768_2_1_1_2_0_0_wf : DotDims.WF S16x1024x1024 S16x1024x768 S16x1024x768 [2] [1] [1] [2] [0] [0]

variable [Facts₀]

def dot_S16x1024x768_S1024x768_S16x1024x1024_2_1_01_0_n_n : DotDims S16x1024x768 S1024x768 S16x1024x1024 where
  lhsContracting := [2]
  rhsContracting := [1]
  lhsNonContracting := [0, 1]
  rhsNonContracting := [0]
  lhsBatch := []
  rhsBatch := []
  wf := dot_S16x1024x768_S1024x768_S16x1024x1024_2_1_01_0_n_n_wf
def dot_S16x1024x768_S16x1024x768_S16x1024x1024_2_2_1_1_0_0 : DotDims S16x1024x768 S16x1024x768 S16x1024x1024 where
  lhsContracting := [2]
  rhsContracting := [2]
  lhsNonContracting := [1]
  rhsNonContracting := [1]
  lhsBatch := [0]
  rhsBatch := [0]
  wf := dot_S16x1024x768_S16x1024x768_S16x1024x1024_2_2_1_1_0_0_wf
def dot_S16x1024x1024_S16x1024x768_S16x1024x768_2_1_1_2_0_0 : DotDims S16x1024x1024 S16x1024x768 S16x1024x768 where
  lhsContracting := [2]
  rhsContracting := [1]
  lhsNonContracting := [1]
  rhsNonContracting := [2]
  lhsBatch := [0]
  rhsBatch := [0]
  wf := dot_S16x1024x1024_S16x1024x768_S16x1024x768_2_1_1_2_0_0_wf

class Facts : Prop extends Facts₀ where

variable [Facts]
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Spec.lean ====
/-
  The mathematics the kernel and its reference compute, over the extended reals, entry by entry.

  Inputs: two batches of sequences `h` and `q` (16 × 1024 rows of 768 features), two weight matrices `w1`, `w2`
  (1024 × 768) and two bias vectors `b1`, `b2` (1024). For a batch `b`, a row `s` of `h` and a row `t` of `q` the
  LOGIT is  h_s·w1_t + b1_t + q_t·w2_s + b2_s + h_s·q_t.  A softmax of the logits over `t` weighs the rows of `q` into a
  CONTEXT row; a second softmax, over `s`, of the rows' largest logits gives each row a GATE. The result lays four
  pieces side by side: `h`, the context, their product, and the gated product.

  The reference takes each softmax in one pass. The kernel walks the 1024 rows of `q` in four tiles of 256 and keeps,
  per row `s`, a running maximum, a running denominator and a running numerator, each rescaled when the maximum
  grows; it forms every matrix product as three products of a value and a remainder `x - x` (a split that is exact only
  in floating point: over the reals the remainder is zero). Both arrangements are written here exactly as the two
  programs spell them, so that reading either program at an index is a matter of unfolding; that the two agree on
  finite inputs is the subject of the algebra module.
-/
import Idealize.ShloMosaic.PureOps.Ideal
import Mathlib.Data.EReal.Operations
import Mathlib.Data.Finset.Fold
import Mathlib.Algebra.BigOperators.Group.Finset.Basic
import proofs.«418724_j11922829214354_3_alg».proof.Proof.LibReal

noncomputable section

namespace Cert.Attn

open Idealize.ShloMosaic
open scoped BigOperators

variable (h q : Fin 16 → Fin 1024 → Fin 768 → EReal) (w1 w2 : Fin 1024 → Fin 768 → EReal) (b1 b2 : Fin 1024 → EReal)

/-! ## The reference's arrangement -/

/-- The logit of row `s` of `h` against row `t` of `q`, in the order the reference adds its three products. -/
def logit (b : Fin 16) (s t : Fin 1024) : EReal :=
  (((∑ d : Fin 768, h b s d * w1 t d) + b1 t) + ((∑ d : Fin 768, q b t d * w2 s d) + b2 s)) + ∑ d : Fin 768, h b s d * q b t d

/-- The largest logit of row `s`: the maximum over `t`, folded from `-∞`. -/
def rowMax (b : Fin 16) (s : Fin 1024) : EReal :=
  (Finset.univ : Finset (Fin 1024)).fold max ⊥ (fun t => logit h q w1 w2 b1 b2 b s t)

/-- The softmax weight of row `t` of `q` for row `s`. -/
def prob (b : Fin 16) (s t : Fin 1024) : EReal :=
  Ideal.div (Ideal.exp (logit h q w1 w2 b1 b2 b s t - rowMax h q w1 w2 b1 b2 b s))
    (∑ t' : Fin 1024, Ideal.exp (logit h q w1 w2 b1 b2 b s t' - rowMax h q w1 w2 b1 b2 b s))

/-- The context row: the rows of `q` weighed by the softmax. -/
def ctx (b : Fin 16) (s : Fin 1024) (d : Fin 768) : EReal :=
  ∑ t : Fin 1024, prob h q w1 w2 b1 b2 b s t * q b t d

/-- The largest logit of the whole batch: the maximum over `s` of the rows' maxima. -/
def colMax (b : Fin 16) : EReal :=
  (Finset.univ : Finset (Fin 1024)).fold max ⊥ (fun s => rowMax h q w1 w2 b1 b2 b s)

/-- The gate of row `s`: the softmax over `s` of the rows' maxima. -/
def gate (b : Fin 16) (s : Fin 1024) : EReal :=
  Ideal.div (Ideal.exp (rowMax h q w1 w2 b1 b2 b s - colMax h q w1 w2 b1 b2 b))
    (∑ s' : Fin 1024, Ideal.exp (rowMax h q w1 w2 b1 b2 b s' - colMax h q w1 w2 b1 b2 b))

/-- The four pieces of the result, side by side along the last axis: piece `p` fills columns `768 p … 768 p + 767`. -/
def piece (p : Fin 4) (b : Fin 16) (s : Fin 1024) (d : Fin 768) : EReal :=
  match p with
  | 0 => h b s d
  | 1 => ctx h q w1 w2 b1 b2 b s d
  | 2 => h b s d * ctx h q w1 w2 b1 b2 b s d
  | 3 => (h b s d * gate h q w1 w2 b1 b2 b s) * ctx h q w1 w2 b1 b2 b s d

/-! ## The kernel's arrangement -/

/-- Row `j` of tile `k` of `q` (tiles of 256 rows; `k` ranges over 0 … 3, and the remainder only makes the
    function total). -/
def tileIdx (k : ℕ) (j : Fin 256) : Fin 1024 := ⟨(256 * k + j.val) % 1024, Nat.mod_lt _ (by norm_num)⟩

/-- The logit as the kernel forms it: `h` against `w1 + q` in three products (the value, and the two remainders
    `x - x`), then `w2` against `q`, then the two biases. -/
def klogit (b : Fin 16) (s t : Fin 1024) : EReal :=
  (((((∑ d : Fin 768, h b s d * (w1 t d + q b t d))
        + ∑ d : Fin 768, h b s d * ((w1 t d + q b t d) - (w1 t d + q b t d)))
      + ∑ d : Fin 768, (h b s d - h b s d) * (w1 t d + q b t d))
    + ∑ d : Fin 768, w2 s d * q b t d)
    + b1 t)
    + b2 s

/-- What the kernel carries from tile to tile for one row: the running maximum, the running denominator and the
    running numerator (one entry per feature). -/
structure St where
  m : EReal
  l : EReal
  acc : Fin 768 → EReal

/-- Before the first tile: the maximum at `-∞`, denominator and numerator at zero. -/
def St.init : St := ⟨⊥, 0, fun _ => 0⟩

/-- The largest of a row's logits `a` within tile `k`. -/
def tileMax (a : Fin 1024 → EReal) (k : ℕ) : EReal :=
  (Finset.univ : Finset (Fin 256)).fold max ⊥ (fun j => a (tileIdx k j))

/-- One tile's update of the carried state for a row with logits `a` against the value rows `v`, as the kernel
    spells it: the new maximum; the factor `α` that rescales what was carried; the tile's weights `p`; the numerator's
    product `p · v` in three products (the value, and the two remainders `x - x`). -/
def step (a : Fin 1024 → EReal) (v : Fin 1024 → Fin 768 → EReal) (k : ℕ) (σ : St) : St :=
  let m' : EReal := max σ.m (tileMax a k)
  let α : EReal := Ideal.exp (σ.m - m')
  let p : Fin 256 → EReal := fun j => Ideal.exp (a (tileIdx k j) - m')
  ⟨m', α * σ.l + ∑ j : Fin 256, p j,
    fun d => α * σ.acc d
      + (((∑ j : Fin 256, p j * v (tileIdx k j) d)
          + ∑ j : Fin 256, p j * (v (tileIdx k j) d - v (tileIdx k j) d))
        + ∑ j : Fin 256, (p j - p j) * v (tileIdx k j) d)⟩

/-- The carried state after tile `k`. -/
def state (a : Fin 1024 → EReal) (v : Fin 1024 → Fin 768 → EReal) : ℕ → St
  | 0 => step a v 0 St.init
  | k + 1 => step a v (k + 1) (state a v k)

/-- The kernel's carried state of row `s` of batch `b` after tile `k`: its logits against the rows of `q`. -/
def kstate (b : Fin 16) (s : Fin 1024) (k : ℕ) : St :=
  state (klogit h q w1 w2 b1 b2 b s) (q b) k

/-- The kernel's context row: numerator over denominator after the last tile. -/
def kctx (b : Fin 16) (s : Fin 1024) (d : Fin 768) : EReal :=
  Ideal.div ((kstate h q w1 w2 b1 b2 b s 3).acc d) (kstate h q w1 w2 b1 b2 b s 3).l

/-- The kernel's largest logit of the batch: the maximum over `s` of the running maxima after the last tile. -/
def kcolMax (b : Fin 16) : EReal :=
  (Finset.univ : Finset (Fin 1024)).fold max ⊥ (fun s => (kstate h q w1 w2 b1 b2 b s 3).m)

/-- The kernel's gate of row `s`. -/
def kgate (b : Fin 16) (s : Fin 1024) : EReal :=
  Ideal.div (Ideal.exp ((kstate h q w1 w2 b1 b2 b s 3).m - kcolMax h q w1 w2 b1 b2 b))
    (∑ s' : Fin 1024, Ideal.exp ((kstate h q w1 w2 b1 b2 b s' 3).m - kcolMax h q w1 w2 b1 b2 b))

/-- The four pieces as the kernel stores them after the last tile. -/
def kpiece (p : Fin 4) (b : Fin 16) (s : Fin 1024) (d : Fin 768) : EReal :=
  match p with
  | 0 => h b s d
  | 1 => kctx h q w1 w2 b1 b2 b s d
  | 2 => h b s d * kctx h q w1 w2 b1 b2 b s d
  | 3 => (h b s d * kgate h q w1 w2 b1 b2 b s) * kctx h q w1 w2 b1 b2 b s d

/-! ## Finite inputs -/

/-- Every entry of every input is a finite real: what the precondition gives, and what the laws that join the two
    arrangements need (a remainder `x - x` is zero, a product distributes over a sum, a quotient moves across a sum,
    only away from the infinities). -/
structure FiniteArgs : Prop where
  h : ∀ b s d, Cert.LibReal.IsReal (h b s d)
  q : ∀ b s d, Cert.LibReal.IsReal (q b s d)
  w1 : ∀ t d, Cert.LibReal.IsReal (w1 t d)
  w2 : ∀ t d, Cert.LibReal.IsReal (w2 t d)
  b1 : ∀ t, Cert.LibReal.IsReal (b1 t)
  b2 : ∀ t, Cert.LibReal.IsReal (b2 t)

end Cert.Attn

end
-- ==== Proof.Tile.lean ====
/-
  One tile of the kernel's walk, stated over the tile's own data: the 256 rows of `q` and of `w1` the tile holds and
  the 256 entries of `b1`. The specification's `klogit` and `step` at tile `k` are these at the rows `tileIdx k j`.
-/
import proofs.«418724_j11922829214354_3_alg».proof.Proof.Spec

noncomputable section

namespace Cert.Attn

open Idealize.ShloMosaic
open scoped BigOperators

/-- The logit of row `s` against row `j` of a tile, as the kernel forms it from the batch's `h`, the tile's rows of
    `q` and of `w1`, the tile's entries of `b1`, and `w2`, `b2`. -/
def tlogit (hb : Fin 1024 → Fin 768 → EReal) (qt w1t : Fin 256 → Fin 768 → EReal) (b1t : Fin 256 → EReal)
    (w2 : Fin 1024 → Fin 768 → EReal) (b2 : Fin 1024 → EReal) (s : Fin 1024) (j : Fin 256) : EReal :=
  (((((∑ d : Fin 768, hb s d * (w1t j d + qt j d))
        + ∑ d : Fin 768, hb s d * ((w1t j d + qt j d) - (w1t j d + qt j d)))
      + ∑ d : Fin 768, (hb s d - hb s d) * (w1t j d + qt j d))
    + ∑ d : Fin 768, w2 s d * qt j d)
    + b1t j)
    + b2 s

/-- One tile's update of a row's carried state from the tile's 256 logits `al` and 256 value rows `vt`. -/
def tstep (al : Fin 256 → EReal) (vt : Fin 256 → Fin 768 → EReal) (σ : St) : St :=
  let m' : EReal := max σ.m ((Finset.univ : Finset (Fin 256)).fold max ⊥ al)
  let α : EReal := Ideal.exp (σ.m - m')
  let p : Fin 256 → EReal := fun j => Ideal.exp (al j - m')
  ⟨m', α * σ.l + ∑ j : Fin 256, p j,
    fun d => α * σ.acc d
      + (((∑ j : Fin 256, p j * vt j d)
          + ∑ j : Fin 256, p j * (vt j d - vt j d))
        + ∑ j : Fin 256, (p j - p j) * vt j d)⟩

/-- The specification's step at tile `k` is the tile-level step at the tile's rows. -/
theorem step_eq_tstep (a : Fin 1024 → EReal) (v : Fin 1024 → Fin 768 → EReal) (k : ℕ) (σ : St) :
    step a v k σ = tstep (fun j => a (tileIdx k j)) (fun j => v (tileIdx k j)) σ := rfl

/-- The specification's kernel logit at row `tileIdx k j` of `q` is the tile-level logit at the tile's rows. -/
theorem klogit_tile (h q : Fin 16 → Fin 1024 → Fin 768 → EReal) (w1 w2 : Fin 1024 → Fin 768 → EReal) (b1 b2 : Fin 1024 → EReal)
    (b : Fin 16) (s : Fin 1024) (k : ℕ) (j : Fin 256) :
    klogit h q w1 w2 b1 b2 b s (tileIdx k j)
      = tlogit (h b) (fun j => q b (tileIdx k j)) (fun j => w1 (tileIdx k j)) (fun j => b1 (tileIdx k j)) w2 b2 s j := rfl

end Cert.Attn

end
-- ==== Proof.Slices.lean ====
/-
  The two loads the kernel body makes at the tile's offset: rows `256 k … 256 k + 255` of the resident matrix `w1` and
  entries `256 k … 256 k + 255` of the resident row `b1`, where `k` is the grid point's second coordinate (the tile).
  At point `t` of the grid that coordinate is `t % 4` and the first one, the batch, is `t / 4`.
-/
import proofs.«418724_j11922829214354_3_alg».proof.Proof.Gen.KernelIdeal.Launch
import proofs.«418724_j11922829214354_3_alg».proof.Proof.Tile
import Idealize.ShloMosaic.Lib.ValueIdx
import Idealize.ShloMosaic.Lib.Pipeline.Value

noncomputable section

namespace Cert.KernelIdeal.Bridge

open Cert.KernelIdeal Cert.KernelIdeal.Gen Idealize.ShloMosaic Idealize.ShloMosaic.ValueIdx Cert.Attn

variable {F : FTy → Type} [FloatOps F]

/-- The tile of `w1` the body loads at grid coordinates `i`: 256 rows from row `256 (i 1)`. -/
abbrev w1tile (i : grid0.Coords) (x2 : Vec F S1024x768 .f32) : Vec F S256x768 .f32 :=
  View.ld x2 (Rect.unit (s := S1024x768) (k0_off1 i) S256x768.size (k0_off1_inb i))

/-- The tile of `b1` (as a [1, 1024] row) the body loads at grid coordinates `i`: 256 entries from entry `256 (i 1)`. -/
abbrev b1tile (i : grid0.Coords) (x3 : Vec F S1x1024 .f32) : Vec F S1x256 .f32 :=
  View.ld x3 (Rect.unit (s := S1x1024) (k0_off2 i) S1x256.size (k0_off2_inb i))

/-- The batch coordinate of grid point `t`. -/
theorem coords_batch (t : Fin cfg0.N) : ((grid0.coords t) 0).val = t.val / 4 := by
  exact (by decide +kernel : ∀ t : Fin grid0.N, ((grid0.coords t) 0).val = t.val / 4) t

/-- The tile coordinate of grid point `t`. -/
theorem coords_tile (t : Fin cfg0.N) : ((grid0.coords t) 1).val = t.val % 4 := by
  exact (by decide +kernel : ∀ t : Fin grid0.N, ((grid0.coords t) 1).val = t.val % 4) t

/-- Row `j` of the loaded tile of `w1` is row `tileIdx (t % 4) j` of `w1`. -/
theorem w1tile_apply (t : Fin cfg0.N) (x2 : Vec F S1024x768 .f32) (j : Fin 256) (d : Fin 768) :
    w1tile (grid0.coords t) x2 (ix2 j d) = x2 (ix2 (tileIdx (t.val % 4) j) d) := by
  have ht : ((grid0.coords t) 1).val = t.val % 4 := coords_tile t
  have hj : j.val < 256 := j.isLt
  have e : k0_off1 (grid0.coords t) = ![256 * ((grid0.coords t) 1).val, 0] := k0_off1_eq (grid0.coords t)
  refine congrArg x2 (funext fun a => Fin.ext ?_)
  match a with
  | ⟨0, _⟩ =>
    show k0_off1 (grid0.coords t) 0 + 1 * j.val = (256 * (t.val % 4) + j.val) % 1024
    rw [e]
    show 256 * ((grid0.coords t) 1).val + 1 * j.val = (256 * (t.val % 4) + j.val) % 1024
    omega
  | ⟨1, _⟩ =>
    show k0_off1 (grid0.coords t) 1 + 1 * d.val = d.val
    rw [e]
    show 0 + 1 * d.val = d.val
    omega

/-- Entry `j` of the loaded tile of `b1` is entry `tileIdx (t % 4) j` of `b1`. -/
theorem b1tile_apply (t : Fin cfg0.N) (x3 : Vec F S1x1024 .f32) (j : Fin 256) :
    b1tile (grid0.coords t) x3 (ix2 0 j) = x3 (ix2 0 (tileIdx (t.val % 4) j)) := by
  have ht : ((grid0.coords t) 1).val = t.val % 4 := coords_tile t
  have hj : j.val < 256 := j.isLt
  have e : k0_off2 (grid0.coords t) = ![0, 256 * ((grid0.coords t) 1).val] := k0_off2_eq (grid0.coords t)
  refine congrArg x3 (funext fun a => Fin.ext ?_)
  match a with
  | ⟨0, _⟩ =>
    show k0_off2 (grid0.coords t) 0 + 1 * 0 = 0
    rw [e]
    show 0 + 1 * 0 = 0
    omega
  | ⟨1, _⟩ =>
    show k0_off2 (grid0.coords t) 1 + 1 * j.val = (256 * (t.val % 4) + j.val) % 1024
    rw [e]
    show 256 * ((grid0.coords t) 1).val + 1 * j.val = (256 * (t.val % 4) + j.val) % 1024
    omega

end Cert.KernelIdeal.Bridge

end
-- ==== Proof.Cols.lean ====
/-
  The result's last axis has 3072 columns: four pieces of 768 side by side. Column `768 p + d` is feature `d` of piece `p`.
-/
import Mathlib.Data.Fin.Basic

namespace Cert.Attn

/-- Column `768 p + d` of the result: feature `d` of piece `p`. -/
def colIdx (p : Fin 4) (d : Fin 768) : Fin 3072 :=
  ⟨768 * p.val + d.val, by have hp := p.isLt; have hd := d.isLt; omega⟩

@[simp] theorem colIdx_val (p : Fin 4) (d : Fin 768) : (colIdx p d).val = 768 * p.val + d.val := rfl

end Cert.Attn
-- ==== Proof.Pieces.lean ====
/-
  What each case of the kernel body leaves behind, as payload terms. The body has three cases over the grid: the first
  tile of a batch resets the three carried vectors (numerator to zero, denominator to zero, maximum to `-∞`) and then
  updates them; a middle tile updates what the point before left; the last tile updates and then stores the result's
  four pieces from what it has just stored. Every store covers its whole buffer, so what a buffer ends with is the
  payload of the last store into it, and a load after a store reads that store's payload.
-/
import proofs.«418724_j11922829214354_3_alg».proof.Proof.Gen.KernelIdeal.Frame
import proofs.«418724_j11922829214354_3_alg».proof.Proof.Slices
import proofs.«418724_j11922829214354_3_alg».proof.Proof.Cols

set_option maxRecDepth 16384

noncomputable section

namespace Cert.KernelIdeal.Bridge

open Cert.KernelIdeal Cert.KernelIdeal.Gen Idealize.ShloMosaic Idealize.ShloMosaic.TcCoe Idealize.ShloMosaic.Tactic
open Idealize.ShloMosaic.ValueIdx Cert.Attn
open Idealize.SL Idealize.SL.Sem

variable {F : FTy → Type} [FloatOps F]

/-- The zero offsets of a rank-2 buffer, however they are spelt. -/
theorem hz2 : (![0, 0] : Fin 2 → Nat) = fun _ => 0 := funext fun a => by fin_cases a <;> rfl
/-- The zero offsets of a rank-3 buffer. -/
theorem hz3 : (![0, 0, 0] : Fin 3 → Nat) = fun _ => 0 := funext fun a => by fin_cases a <;> rfl

/-- The tile's logits before the second bias, from the point's blocks: `h` against the tile of `w1` plus the tile of
    `q`, `w2` against the tile of `q`, and the tile of `b1`. -/
abbrev tileV36 (i : grid0.Coords) (x0 : Vec F S1x1024x768 .f32) (x1 : Vec F S1x256x768 .f32) (x2 : Vec F S1024x768 .f32)
    (x3 : Vec F S1x1024 .f32) (x4 : Vec F S1024x768 .f32) : FVec F S1024x256 .f32 :=
  k0_pay11 x0 x1 (w1tile i x2) (b1tile i x3) x4

variable (c : Dev nD) (i : grid0.Coords)
  (arg2 : Memref sig .tc .vmem S1x1024x768 .f32) (harg2 : arg2.IsWhole) (arg3 : Memref sig .tc .vmem S1x256x768 .f32) (harg3 : arg3.IsWhole)
  (arg4 : Memref sig .tc .vmem S1024x768 .f32) (harg4 : arg4.IsWhole) (arg5 : Memref sig .tc .vmem S1x1024 .f32) (harg5 : arg5.IsWhole)
  (arg6 : Memref sig .tc .vmem S1024x768 .f32) (harg6 : arg6.IsWhole) (arg7 : Memref sig .tc .vmem S1024x1 .f32) (harg7 : arg7.IsWhole)
  (arg8 : Memref sig .tc .vmem S1x1024x3072 .f32) (harg8 : arg8.IsWhole) (arg9 : Memref sig .tc .vmem S1024x768 .f32) (harg9 : arg9.IsWhole)
  (arg10 : Memref sig .tc .vmem S1024x1 .f32) (harg10 : arg10.IsWhole) (arg11 : Memref sig .tc .vmem S1024x1 .f32) (harg11 : arg11.IsWhole)
  (x0 : Vec F S1x1024x768 .f32) (x1 : Vec F S1x256x768 .f32) (x2 : Vec F S1024x768 .f32) (x3 : Vec F S1x1024 .f32)
  (x4 : Vec F S1024x768 .f32) (x5 : Vec F S1024x1 .f32)

/-! ## A first tile: reset, then update -/

/-- What a first tile leaves as the running maximum. -/
theorem sout_A_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 hc0 hc1 x0 x1 x2 x3 x4 x5
      = k0_pay19 (tileV36 i x0 x1 x2 x3 x4) (k0_pay12 x5) k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-- What a first tile leaves as the running denominator. -/
theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5
      = k0_pay17 (tileV36 i x0 x1 x2 x3 x4) (k0_pay12 x5) k0_pay8 k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-- What a first tile leaves as the running numerator. -/
theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5
      = k0_pay18 (k0_pay10 x1) (tileV36 i x0 x1 x2 x3 x4) (k0_pay12 x5) k0_pay8 k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-! ## A middle tile: update what the point before left -/

/-- What a middle tile leaves as the running maximum. -/
theorem sout_B_2 (hc0 : ¬cond0_0 i) (hc1 : ¬cond0_1 i) (xs0 : Vec F S1024x768 .f32) (xs1 : Vec F S1024x1 .f32) (xs2 : Vec F S1024x1 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay19 (tileV36 i x0 x1 x2 x3 x4) (k0_pay12 x5) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-- What a middle tile leaves as the running denominator. -/
theorem sout_B_1 (hc0 : ¬cond0_0 i) (hc1 : ¬cond0_1 i) (xs0 : Vec F S1024x768 .f32) (xs1 : Vec F S1024x1 .f32) (xs2 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay17 (tileV36 i x0 x1 x2 x3 x4) (k0_pay12 x5) xs2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-- What a middle tile leaves as the running numerator. -/
theorem sout_B_0 (hc0 : ¬cond0_0 i) (hc1 : ¬cond0_1 i) (xs0 : Vec F S1024x768 .f32) (xs1 : Vec F S1024x1 .f32) (xs2 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay18 (k0_pay10 x1) (tileV36 i x0 x1 x2 x3 x4) (k0_pay12 x5) xs2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-! ## The last tile: update, then store the four pieces -/

/-- What the last tile leaves as the running maximum. -/
theorem sout_C_2 (hc0 : ¬cond0_0 i) (hc1 : cond0_1 i) (xs0 : Vec F S1024x768 .f32) (xs1 : Vec F S1024x1 .f32) (xs2 : Vec F S1024x1 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay19 (tileV36 i x0 x1 x2 x3 x4) (k0_pay12 x5) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-- What the last tile leaves as the running denominator. -/
theorem sout_C_1 (hc0 : ¬cond0_0 i) (hc1 : cond0_1 i) (xs0 : Vec F S1024x768 .f32) (xs1 : Vec F S1024x1 .f32) (xs2 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay17 (tileV36 i x0 x1 x2 x3 x4) (k0_pay12 x5) xs2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-- What the last tile leaves as the running numerator. -/
theorem sout_C_0 (hc0 : ¬cond0_0 i) (hc1 : cond0_1 i) (xs0 : Vec F S1024x768 .f32) (xs1 : Vec F S1024x1 .f32) (xs2 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay18 (k0_pay10 x1) (tileV36 i x0 x1 x2 x3 x4) (k0_pay12 x5) xs2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-- What the last tile leaves in the output's staging buffer: four pieces side by side along the last axis (listed
    last first), each a payload of `h` and of the three vectors the tile has just stored. -/
theorem out_C_6_eq (hc0 : ¬cond0_0 i) (hc1 : cond0_1 i) (xs0 : Vec F S1024x768 .f32) (xs1 : Vec F S1024x1 .f32) (xs2 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2
      = View.canon
          [⟨Rect.unit (s := S1x1024x3072) ![0, 0, 2304] S1x1024x768.size inb_S1x1024x3072_S1x1024x768_0_0_2304,
              k0_pay5 (k0_pay9 x0) (k0_pay18 (k0_pay10 x1) (tileV36 i x0 x1 x2 x3 x4) (k0_pay12 x5) xs2 xs0) (k0_pay17 (tileV36 i x0 x1 x2 x3 x4) (k0_pay12 x5) xs2 xs1) (k0_pay19 (tileV36 i x0 x1 x2 x3 x4) (k0_pay12 x5) xs2) (k0_pay19 (tileV36 i x0 x1 x2 x3 x4) (k0_pay12 x5) xs2)⟩,
            ⟨Rect.unit (s := S1x1024x3072) ![0, 0, 1536] S1x1024x768.size inb_S1x1024x3072_S1x1024x768_0_0_1536,
              k0_pay4 (k0_pay9 x0) (k0_pay18 (k0_pay10 x1) (tileV36 i x0 x1 x2 x3 x4) (k0_pay12 x5) xs2 xs0) (k0_pay17 (tileV36 i x0 x1 x2 x3 x4) (k0_pay12 x5) xs2 xs1)⟩,
            ⟨Rect.unit (s := S1x1024x3072) ![0, 0, 768] S1x1024x768.size inb_S1x1024x3072_S1x1024x768_0_0_768,
              k0_pay3 (k0_pay18 (k0_pay10 x1) (tileV36 i x0 x1 x2 x3 x4) (k0_pay12 x5) xs2 xs0) (k0_pay17 (tileV36 i x0 x1 x2 x3 x4) (k0_pay12 x5) xs2 xs1)⟩,
            ⟨Rect.unit (s := S1x1024x3072) ![0, 0, 0] S1x1024x768.size inb_S1x1024x3072_S1x1024x768_0_0_0,
              k0_pay2 (k0_pay9 x0)⟩] := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  simp only [View.canon_cons_unit_zero (S := S1024x1) hz2, View.canon_cons_unit_zero (S := S1024x768) hz2,
    View.canon_unit_zero (S := S1024x1) hz2, View.canon_unit_zero (S := S1024x768) hz2,
    View.readCov_unit_zero (S := S1024x1) _ hz2, View.readCov_unit_zero (S := S1024x768) _ hz2,
    View.readAt_eq_ld, harg2.read_unread, harg3.read_unread, harg4.read_unread, harg5.read_unread, harg6.read_unread, harg7.read_unread,
    harg9.read_unread, harg10.read_unread, harg11.read_unread,
    View.ld_unit_zero (S := S1x1024x768) hz3, View.ld_unit_zero (S := S1x256x768) hz3, View.ld_unit_zero (S := S1024x768) hz2,
    View.ld_unit_zero (S := S1024x1) hz2]
  rfl

/-- A store into the column range that starts at `o` does not touch a column before `o`. -/
theorem canon_skip_cols (o : ℕ) (inb : ∀ a, (![0, 0, o] : Fin 3 → ℕ) a + S1x1024x768.size a ≤ S1x1024x3072.size a)
    (w : S1x1024x768.Idx → Elt F .f32) (L : List (View.Piece (Elt F) S1x1024x3072 .f32)) (s : Fin 1024) (j : Fin 3072)
    (h : j.val < o) :
    View.canon ((⟨Rect.unit (s := S1x1024x3072) ![0, 0, o] S1x1024x768.size inb, w⟩ : View.Piece (Elt F) S1x1024x3072 .f32) :: L)
        (ix3 (0 : Fin 1) s j)
      = View.canon L (ix3 (0 : Fin 1) s j) := by
  refine View.canon_cons_of_not_mem _ L ?_
  show (ix3 (0 : Fin 1) s j : S1x1024x3072.Idx) ∉ (Rect.unit (s := S1x1024x3072) ![0, 0, o] S1x1024x768.size inb).set
  rw [Rect.mem_set_unit]
  intro hall
  have h3 : o ≤ j.val := (hall (2 : Fin 3)).1
  omega

/-- The columns of piece `p` come before column `768 (p + 1)`. -/
theorem colIdx_lt (p : Fin 4) (d : Fin 768) : (colIdx p d).val < 768 * (p.val + 1) := by
  have hd := d.isLt; rw [colIdx_val]; omega

/-- Entry (0, s, 768 p + d) of what the last tile leaves in the output's staging buffer is piece `p`'s payload at
    (0, s, d): the four stores fill disjoint column ranges, 768 columns each. -/
theorem out_C_6_at (hc0 : ¬cond0_0 i) (hc1 : cond0_1 i) (xs0 : Vec F S1024x768 .f32) (xs1 : Vec F S1024x1 .f32) (xs2 : Vec F S1024x1 .f32) (p : Fin 4) (s : Fin 1024) (d : Fin 768) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2 (ix3 (0 : Fin 1) s (colIdx p d))
      = (match p with
          | 0 => k0_pay2 (k0_pay9 x0)
          | 1 => k0_pay3 (k0_pay18 (k0_pay10 x1) (tileV36 i x0 x1 x2 x3 x4) (k0_pay12 x5) xs2 xs0) (k0_pay17 (tileV36 i x0 x1 x2 x3 x4) (k0_pay12 x5) xs2 xs1)
          | 2 => k0_pay4 (k0_pay9 x0) (k0_pay18 (k0_pay10 x1) (tileV36 i x0 x1 x2 x3 x4) (k0_pay12 x5) xs2 xs0) (k0_pay17 (tileV36 i x0 x1 x2 x3 x4) (k0_pay12 x5) xs2 xs1)
          | 3 => k0_pay5 (k0_pay9 x0) (k0_pay18 (k0_pay10 x1) (tileV36 i x0 x1 x2 x3 x4) (k0_pay12 x5) xs2 xs0) (k0_pay17 (tileV36 i x0 x1 x2 x3 x4) (k0_pay12 x5) xs2 xs1) (k0_pay19 (tileV36 i x0 x1 x2 x3 x4) (k0_pay12 x5) xs2) (k0_pay19 (tileV36 i x0 x1 x2 x3 x4) (k0_pay12 x5) xs2)) (ix3 (0 : Fin 1) s d) := by
  rw [out_C_6_eq]
  match p with
  | 3 =>
    have e : (ix3 (0 : Fin 1) s (colIdx 3 d) : S1x1024x3072.Idx) = (Rect.unit (s := S1x1024x3072) ![0, 0, 2304] S1x1024x768.size inb_S1x1024x3072_S1x1024x768_0_0_2304).emb (ix3 (0 : Fin 1) s d) := by
      funext a; apply Fin.ext
      match a with
      | ⟨0, _⟩ => rfl
      | ⟨1, _⟩ => show s.val = 0 + 1 * s.val; omega
      | ⟨2, _⟩ => show 768 * (3 : Fin 4).val + d.val = 2304 + 1 * d.val; simp
    rw [e, View.canon_cons_emb]
  | 2 =>
    have e : (ix3 (0 : Fin 1) s (colIdx 2 d) : S1x1024x3072.Idx) = (Rect.unit (s := S1x1024x3072) ![0, 0, 1536] S1x1024x768.size inb_S1x1024x3072_S1x1024x768_0_0_1536).emb (ix3 (0 : Fin 1) s d) := by
      funext a; apply Fin.ext
      match a with
      | ⟨0, _⟩ => rfl
      | ⟨1, _⟩ => show s.val = 0 + 1 * s.val; omega
      | ⟨2, _⟩ => show 768 * (2 : Fin 4).val + d.val = 1536 + 1 * d.val; simp
    rw [canon_skip_cols 2304 _ _ _ s (colIdx 2 d) (lt_of_lt_of_le (colIdx_lt 2 d) (by decide)), e, View.canon_cons_emb]
  | 1 =>
    have e : (ix3 (0 : Fin 1) s (colIdx 1 d) : S1x1024x3072.Idx) = (Rect.unit (s := S1x1024x3072) ![0, 0, 768] S1x1024x768.size inb_S1x1024x3072_S1x1024x768_0_0_768).emb (ix3 (0 : Fin 1) s d) := by
      funext a; apply Fin.ext
      match a with
      | ⟨0, _⟩ => rfl
      | ⟨1, _⟩ => show s.val = 0 + 1 * s.val; omega
      | ⟨2, _⟩ => show 768 * (1 : Fin 4).val + d.val = 768 + 1 * d.val; simp
    rw [canon_skip_cols 2304 _ _ _ s (colIdx 1 d) (lt_of_lt_of_le (colIdx_lt 1 d) (by decide)),
      canon_skip_cols 1536 _ _ _ s (colIdx 1 d) (lt_of_lt_of_le (colIdx_lt 1 d) (by decide)), e, View.canon_cons_emb]
  | 0 =>
    have e : (ix3 (0 : Fin 1) s (colIdx 0 d) : S1x1024x3072.Idx) = (Rect.unit (s := S1x1024x3072) ![0, 0, 0] S1x1024x768.size inb_S1x1024x3072_S1x1024x768_0_0_0).emb (ix3 (0 : Fin 1) s d) := by
      funext a; apply Fin.ext
      match a with
      | ⟨0, _⟩ => rfl
      | ⟨1, _⟩ => show s.val = 0 + 1 * s.val; omega
      | ⟨2, _⟩ => show 768 * (0 : Fin 4).val + d.val = 0 + 1 * d.val; simp
    rw [canon_skip_cols 2304 _ _ _ s (colIdx 0 d) (lt_of_lt_of_le (colIdx_lt 0 d) (by decide)),
      canon_skip_cols 1536 _ _ _ s (colIdx 0 d) (lt_of_lt_of_le (colIdx_lt 0 d) (by decide)),
      canon_skip_cols 768 _ _ _ s (colIdx 0 d) (lt_of_lt_of_le (colIdx_lt 0 d) (by decide)), e, View.canon_cons_emb]

end Cert.KernelIdeal.Bridge

end
-- ==== Proof.PayAt.lean ====
/-
  The kernel body's arithmetic read at an index, at the ideal values. Each payload of the body is one pure term of
  the values the body loaded; here each is read at explicit coordinates as the tile-level mathematics: the tile's
  logits, one tile's update of the carried state (running maximum, denominator, numerator), and the four pieces the
  last tile stores. Layout operations (casts between [1, n, d] and [n, d], broadcasts of a column along a row) only
  rename coordinates; a lane reduction is a fold or a sum over the reduced coordinate; a matrix product into a zero
  accumulator is the sum over the contracted coordinate.
-/
import proofs.«418724_j11922829214354_3_alg».proof.Proof.Gen.KernelIdeal.Skeleton
import proofs.«418724_j11922829214354_3_alg».proof.Proof.Tile
import proofs.«418724_j11922829214354_3_alg».proof.Proof.LibReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.ValueIdx Cert.Attn
open scoped BigOperators

/-! ## Blocks and carried vectors as functions of coordinates -/

/-- A [1, 1024, 768] block of `h` by (row, feature). -/
def blkH (x0 : Vec Ideal S1x1024x768 .f32) : Fin 1024 → Fin 768 → EReal := fun s d => x0 (ix3 0 s d)
/-- A [1, 256, 768] tile of `q` by (row in the tile, feature). -/
def blkQ (x1 : Vec Ideal S1x256x768 .f32) : Fin 256 → Fin 768 → EReal := fun j d => x1 (ix3 0 j d)
/-- A [256, 768] tile (of `w1`, or of `q` after its cast) by (row in the tile, feature). -/
def blkW (w : Vec Ideal S256x768 .f32) : Fin 256 → Fin 768 → EReal := fun j d => w (ix2 j d)
/-- A [1, 256] tile of `b1` by entry. -/
def blkB1 (b : Vec Ideal S1x256 .f32) : Fin 256 → EReal := fun j => b (ix2 0 j)
/-- The [1024, 768] matrix `w2` by (row, feature). -/
def blkW2 (x4 : Vec Ideal S1024x768 .f32) : Fin 1024 → Fin 768 → EReal := fun s d => x4 (ix2 s d)
/-- The [1024, 1] column `b2` by row. -/
def blkB2 (x5 : Vec Ideal S1024x1 .f32) : Fin 1024 → EReal := fun s => x5 (ix2 s 0)

/-- Row `s`'s carried state, read off the three carried vectors (maximum, denominator: [1024, 1] columns; numerator:
    a [1024, 768] matrix). -/
def stOf (mv lv : Vec Ideal S1024x1 .f32) (av : Vec Ideal S1024x768 .f32) (s : Fin 1024) : St :=
  ⟨mv (ix2 s 0), lv (ix2 s 0), fun d => av (ix2 s d)⟩

/-! ## Layout forms the library does not state: a column against a row -/

/-- An `[a]` array cast to a column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector at an index is the exponential of the element. -/
private theorem exp_apply {s : Shape} {φ : FTy} (v : FVec Ideal s φ) (i : s.Idx) : exp v i = Ideal.exp (v i) := rfl

/-! ## Lane reductions of a column and of a matrix's rows, by coordinates -/

/-- The maximum of a `[1024, 1]` column over its rows, folded from `-∞`. -/
private theorem reduceMax_col (src : FVec Ideal S1024x1 .f32) (h : S1024x1.Reduces [0] S1) (hφ : FKind.Formats .f32)
    (hacc : (0xFF800000#32 : BitVec (FTy.bits .f32)) = FKind.maximumf.neutral .f32 hφ) :
    multiReduction (F := Ideal) .maximumf [0] S1 src 0xFF800000#32 h hφ hacc (ix1 (0 : Fin 1))
      = (Finset.univ : Finset (Fin 1024)).fold max ⊥ (fun s' => src (ix2 s' 0)) := by
  refine (Ideal.multiReduction_maximumf_single src _ h hφ hacc _).trans ?_
  rw [show (FloatOps.ofBits (F := Ideal) .f32 0xFF800000#32 : EReal) = ⊥ from LibReal.ofBits_neg_inf]
  exact Finset.fold_congr fun k _ => congrArg src (funext fun a => Fin.ext (match a with | ⟨0, _⟩ => rfl | ⟨1, _⟩ => rfl))

/-- The sum of a `[1024, 1]` column over its rows. -/
private theorem reduceAdd_col (src : FVec Ideal S1024x1 .f32) (h : S1024x1.Reduces [0] S1) (hφ : FKind.Formats .f32)
    (hacc : (0x00000000#32 : BitVec (FTy.bits .f32)) = FKind.add.neutral .f32 hφ) :
    multiReduction (F := Ideal) .add [0] S1 src 0x00000000#32 h hφ hacc (ix1 (0 : Fin 1))
      = ∑ s' : Fin 1024, src (ix2 s' 0) := by
  refine (Ideal.multiReduction_add_single src _ h hφ hacc _).trans ?_
  exact Finset.sum_congr rfl fun k _ => congrArg src (funext fun a => Fin.ext (match a with | ⟨0, _⟩ => rfl | ⟨1, _⟩ => rfl))

/-- The maximum of each row of a `[1024, 256]` matrix, folded from `-∞`. -/
private theorem reduceMax_row (src : FVec Ideal S1024x256 .f32) (h : S1024x256.Reduces [1] S1024) (hφ : FKind.Formats .f32)
    (hacc : (0xFF800000#32 : BitVec (FTy.bits .f32)) = FKind.maximumf.neutral .f32 hφ) (s : Fin 1024) :
    multiReduction (F := Ideal) .maximumf [1] S1024 src 0xFF800000#32 h hφ hacc (ix1 s)
      = (Finset.univ : Finset (Fin 256)).fold max ⊥ (fun j => src (ix2 s j)) := by
  refine (Ideal.multiReduction_maximumf_single src _ h hφ hacc _).trans ?_
  rw [show (FloatOps.ofBits (F := Ideal) .f32 0xFF800000#32 : EReal) = ⊥ from LibReal.ofBits_neg_inf]
  exact Finset.fold_congr fun k _ => congrArg src (funext fun a => Fin.ext (match a with | ⟨0, _⟩ => rfl | ⟨1, _⟩ => rfl))

/-- The sum of each row of a `[1024, 256]` matrix. -/
private theorem reduceAdd_row (src : FVec Ideal S1024x256 .f32) (h : S1024x256.Reduces [1] S1024) (hφ : FKind.Formats .f32)
    (hacc : (0x00000000#32 : BitVec (FTy.bits .f32)) = FKind.add.neutral .f32 hφ) (s : Fin 1024) :
    multiReduction (F := Ideal) .add [1] S1024 src 0x00000000#32 h hφ hacc (ix1 s)
      = ∑ j : Fin 256, src (ix2 s j) := by
  refine (Ideal.multiReduction_add_single src _ h hφ hacc _).trans ?_
  exact Finset.sum_congr rfl fun k _ => congrArg src (funext fun a => Fin.ext (match a with | ⟨0, _⟩ => rfl | ⟨1, _⟩ => rfl))

/-- The context before its cast: numerator over denominator. -/
private theorem pay1_apply (av : Vec Ideal S1024x768 .f32) (lv : Vec Ideal S1024x1 .f32) (s : Fin 1024) (d : Fin 768) :
    k0_pay1 (F := Ideal) av lv (ix2 s d) = Ideal.div (av (ix2 s d)) (lv (ix2 s 0)) := by
  unfold k0_pay1
  exact congrArg (Ideal.div (av (ix2 s d))) (broadcastTo_a1_ab_apply lv _ s d)

/-! ## Casts and the reset values -/

/-- The cast of a [1, 1024, 768] block to [1024, 768] renames (0, s, d) to (s, d). -/
theorem pay9_apply (x0 : Vec Ideal S1x1024x768 .f32) (s : Fin 1024) (d : Fin 768) :
    k0_pay9 (F := Ideal) x0 (ix2 s d) = x0 (ix3 0 s d) := by
  unfold k0_pay9
  exact shapeCast_1ab_ab_apply x0 _ s d

/-- The cast of a [1, 256, 768] tile to [256, 768] renames (0, j, d) to (j, d). -/
theorem pay10_apply (x1 : Vec Ideal S1x256x768 .f32) (j : Fin 256) (d : Fin 768) :
    k0_pay10 (F := Ideal) x1 (ix2 j d) = x1 (ix3 0 j d) := by
  unfold k0_pay10
  exact shapeCast_1ab_ab_apply x1 _ j d

/-- The numerator is reset to zero. -/
theorem pay6_apply (s : Fin 1024) (d : Fin 768) : k0_pay6 (F := Ideal) (ix2 s d) = 0 := by
  unfold k0_pay6
  exact (congrFun (shapeCast_self _ _) _).trans Ideal.ofBits_zero_f32

/-- The denominator is reset to zero. -/
theorem pay7_apply (s : Fin 1024) : k0_pay7 (F := Ideal) (ix2 s 0) = 0 := by
  unfold k0_pay7
  exact (congrFun (shapeCast_self _ _) _).trans Ideal.ofBits_zero_f32

/-- The running maximum is reset to `-∞`. -/
theorem pay8_apply (s : Fin 1024) : k0_pay8 (F := Ideal) (ix2 s 0) = ⊥ := by
  unfold k0_pay8
  exact (congrFun (shapeCast_self _ _) _).trans LibReal.ofBits_neg_inf

/-! ## The two matrix products, read at an index -/

private theorem lhsA_0 (i : S1024x256.Idx) (q : dot_S1024x768_S256x768_S1024x256_1_1_0_0_n_n.contr.Idx) :
    (dot_S1024x768_S256x768_S1024x256_1_1_0_0_n_n.lhsIdx i q 0).val = (i 0).val := by
  unfold DotDims.lhsIdx
  rw [dif_neg (show ¬(0 : Fin S1024x768.rank) ∈ dot_S1024x768_S256x768_S1024x256_1_1_0_0_n_n.lhsBatch by decide), dif_pos (show (0 : Fin S1024x768.rank) ∈ dot_S1024x768_S256x768_S1024x256_1_1_0_0_n_n.lhsNonContracting by decide)]
  rfl
private theorem lhsA_1 (i : S1024x256.Idx) (q : dot_S1024x768_S256x768_S1024x256_1_1_0_0_n_n.contr.Idx) :
    (dot_S1024x768_S256x768_S1024x256_1_1_0_0_n_n.lhsIdx i q 1).val = (q ⟨0, by decide⟩).val :=
  dot_S1024x768_S256x768_S1024x256_1_1_0_0_n_n.lhsIdx_val_of_single rfl i q
private theorem rhsA_0 (i : S1024x256.Idx) (q : dot_S1024x768_S256x768_S1024x256_1_1_0_0_n_n.contr.Idx) :
    (dot_S1024x768_S256x768_S1024x256_1_1_0_0_n_n.rhsIdx i q 0).val = (i 1).val := by
  unfold DotDims.rhsIdx
  rw [dif_neg (show ¬(0 : Fin S256x768.rank) ∈ dot_S1024x768_S256x768_S1024x256_1_1_0_0_n_n.rhsBatch by decide), dif_pos (show (0 : Fin S256x768.rank) ∈ dot_S1024x768_S256x768_S1024x256_1_1_0_0_n_n.rhsNonContracting by decide)]
  rfl
private theorem rhsA_1 (i : S1024x256.Idx) (q : dot_S1024x768_S256x768_S1024x256_1_1_0_0_n_n.contr.Idx) :
    (dot_S1024x768_S256x768_S1024x256_1_1_0_0_n_n.rhsIdx i q 1).val = (q ⟨0, by decide⟩).val :=
  dot_S1024x768_S256x768_S1024x256_1_1_0_0_n_n.rhsIdx_val_of_single rfl i q

/-- A `[1024, 768]` matrix against a `[256, 768]` one, contracted over the features, into a zero accumulator: at
    `(s, j)` the sum over the features of row `s` of the first times row `j` of the second. -/
private theorem matmulA_apply {φ₁ φ₂ : FTy} (lhs : FVec Ideal S1024x768 φ₁) (rhs : FVec Ideal S256x768 φ₂) (s : Fin 1024) (j : Fin 256) :
    matmul dot_S1024x768_S256x768_S1024x256_1_1_0_0_n_n none lhs rhs (constant (F := Ideal) S1024x256 .f32 0x00000000#32) (ix2 s j)
      = ∑ d : Fin 768, lhs (ix2 s d) * rhs (ix2 j d) := by
  refine (Ideal.matmul_constant_zero_apply dot_S1024x768_S256x768_S1024x256_1_1_0_0_n_n none lhs rhs (ix2 s j)).trans ?_
  rw [← Equiv.sum_comp (contrEquiv1 dot_S1024x768_S256x768_S1024x256_1_1_0_0_n_n 768 rfl rfl).symm]
  refine Finset.sum_congr rfl fun k _ => ?_
  have hk := contrEquiv1_symm_val dot_S1024x768_S256x768_S1024x256_1_1_0_0_n_n 768 rfl rfl k
  have el : dot_S1024x768_S256x768_S1024x256_1_1_0_0_n_n.lhsIdx (ix2 s j) ((contrEquiv1 dot_S1024x768_S256x768_S1024x256_1_1_0_0_n_n 768 rfl rfl).symm k) = ix2 s k := funext fun a => Fin.ext (by
    match a with
    | ⟨0, _⟩ => exact lhsA_0 _ _
    | ⟨1, _⟩ => exact (lhsA_1 _ _).trans hk)
  have er : dot_S1024x768_S256x768_S1024x256_1_1_0_0_n_n.rhsIdx (ix2 s j) ((contrEquiv1 dot_S1024x768_S256x768_S1024x256_1_1_0_0_n_n 768 rfl rfl).symm k) = ix2 j k := funext fun a => Fin.ext (by
    match a with
    | ⟨0, _⟩ => exact rhsA_0 _ _
    | ⟨1, _⟩ => exact (rhsA_1 _ _).trans hk)
  rw [el, er]

private theorem lhsB_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
private theorem lhsB_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
private theorem rhsB_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
private theorem rhsB_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- A `[1024, 256]` matrix against a `[256, 768]` one, contracted over the tile's rows, into a zero accumulator: at
    `(s, d)` the sum over the tile's rows `j` of the first at `(s, j)` times the second at `(j, d)`. -/
private theorem matmulB_apply {φ₁ φ₂ : FTy} (lhs : FVec Ideal S1024x256 φ₁) (rhs : FVec Ideal S256x768 φ₂) (s : Fin 1024) (d : Fin 768) :
    matmul dot_S1024x256_S256x768_S1024x768_1_0_0_1_n_n none lhs rhs (constant (F := Ideal) S1024x768 .f32 0x00000000#32) (ix2 s d)
      = ∑ j : Fin 256, lhs (ix2 s j) * rhs (ix2 j d) := by
  refine (Ideal.matmul_constant_zero_apply dot_S1024x256_S256x768_S1024x768_1_0_0_1_n_n none lhs rhs (ix2 s d)).trans ?_
  rw [← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 s d) ((contrEquiv1 dot_S1024x256_S256x768_S1024x768_1_0_0_1_n_n 256 rfl rfl).symm k) = ix2 s k := funext fun a => Fin.ext (by
    match a with
    | ⟨0, _⟩ => exact lhsB_0 _ _
    | ⟨1, _⟩ => exact (lhsB_1 _ _).trans hk)
  have er : dot_S1024x256_S256x768_S1024x768_1_0_0_1_n_n.rhsIdx (ix2 s d) ((contrEquiv1 dot_S1024x256_S256x768_S1024x768_1_0_0_1_n_n 256 rfl rfl).symm k) = ix2 k d := funext fun a => Fin.ext (by
    match a with
    | ⟨0, _⟩ => exact (rhsB_0 _ _).trans hk
    | ⟨1, _⟩ => exact rhsB_1 _ _)
  rw [el, er]

/-! ## One tile -/

/-- The tile's logits (with the second bias added) at (row `s`, row `j` of the tile). -/
theorem tile_logit_apply (x0 : Vec Ideal S1x1024x768 .f32) (x1 : Vec Ideal S1x256x768 .f32) (w1s : Vec Ideal S256x768 .f32)
    (b1s : Vec Ideal S1x256 .f32) (x4 : Vec Ideal S1024x768 .f32) (x5 : Vec Ideal S1024x1 .f32) (s : Fin 1024) (j : Fin 256) :
    k0_pay13 (F := Ideal) (k0_pay11 x0 x1 w1s b1s x4) (k0_pay12 x5) (ix2 s j)
      = tlogit (blkH x0) (blkQ x1) (blkW w1s) (blkB1 b1s) (blkW2 x4) (blkB2 x5) s j := by
  unfold k0_pay13 k0_pay11 k0_pay12
  simp only [addf_apply, matmulA_apply, truncf_apply, subf_apply, pay9_apply, pay10_apply, broadcastTo_1b_ab_apply,
    broadcastTo_a1_ab_apply, shapeCast_self, tlogit, blkH, blkQ, blkW, blkB1, blkW2, blkB2]

/-! ## One tile's update, field by field -/

/-- The new running maximum of row `s`: the carried one against the largest of the tile's logits. -/
private theorem pay14_at (v36 v37 : FVec Ideal S1024x256 .f32) (mv : Vec Ideal S1024x1 .f32) (s : Fin 1024) :
    k0_pay14 (F := Ideal) v36 v37 mv (ix2 s 0) = (max (mv (ix2 s 0)) ((Finset.univ : Finset (Fin 256)).fold max ⊥ (fun j => k0_pay13 (F := Ideal) v36 v37 (ix2 s j)))) := by
  unfold k0_pay14
  simp only [maximumf_apply, shapeCast_a_a1_apply]
  erw [reduceMax_row]

/-- The maximum as it is carried on (a cast to the same shape). -/
private theorem pay19_at (v36 v37 : FVec Ideal S1024x256 .f32) (mv : Vec Ideal S1024x1 .f32) (s : Fin 1024) :
    k0_pay19 (F := Ideal) v36 v37 mv (ix2 s 0) = (max (mv (ix2 s 0)) ((Finset.univ : Finset (Fin 256)).fold max ⊥ (fun j => k0_pay13 (F := Ideal) v36 v37 (ix2 s j)))) := by
  unfold k0_pay19
  exact (congrFun (shapeCast_self _ _) _).trans (pay14_at v36 v37 mv s)

/-- The factor that rescales what row `s` carried. -/
private theorem pay15_at (v36 v37 : FVec Ideal S1024x256 .f32) (mv : Vec Ideal S1024x1 .f32) (s : Fin 1024) :
    k0_pay15 (F := Ideal) v36 v37 mv (ix2 s 0) = Ideal.exp (mv (ix2 s 0) - (max (mv (ix2 s 0)) ((Finset.univ : Finset (Fin 256)).fold max ⊥ (fun j => k0_pay13 (F := Ideal) v36 v37 (ix2 s j))))) := by
  unfold k0_pay15
  simp only [exp_apply, subf_apply, pay14_at]

/-- The tile's weights for row `s`. -/
private theorem pay16_at (v36 v37 : FVec Ideal S1024x256 .f32) (mv : Vec Ideal S1024x1 .f32) (s : Fin 1024) (j : Fin 256) :
    k0_pay16 (F := Ideal) v36 v37 mv (ix2 s j) = Ideal.exp (k0_pay13 (F := Ideal) v36 v37 (ix2 s j) - (max (mv (ix2 s 0)) ((Finset.univ : Finset (Fin 256)).fold max ⊥ (fun j => k0_pay13 (F := Ideal) v36 v37 (ix2 s j))))) := by
  unfold k0_pay16
  simp only [exp_apply, subf_apply, broadcastTo_a1_ab_apply, pay14_at]

/-- The new denominator of row `s`. -/
private theorem pay17_at (v36 v37 : FVec Ideal S1024x256 .f32) (mv lv : Vec Ideal S1024x1 .f32) (s : Fin 1024) :
    k0_pay17 (F := Ideal) v36 v37 mv lv (ix2 s 0)
      = Ideal.exp (mv (ix2 s 0) - (max (mv (ix2 s 0)) ((Finset.univ : Finset (Fin 256)).fold max ⊥ (fun j => k0_pay13 (F := Ideal) v36 v37 (ix2 s j))))) * lv (ix2 s 0)
        + ∑ j : Fin 256, Ideal.exp (k0_pay13 (F := Ideal) v36 v37 (ix2 s j) - (max (mv (ix2 s 0)) ((Finset.univ : Finset (Fin 256)).fold max ⊥ (fun j => k0_pay13 (F := Ideal) v36 v37 (ix2 s j))))) := by
  unfold k0_pay17
  simp only [shapeCast_self, addf_apply, mulf_apply, pay15_at, shapeCast_a_a1_apply]
  erw [reduceAdd_row]
  simp only [pay16_at]

/-- The new numerator of row `s` at feature `d`. -/
private theorem pay18_at (v6 : FVec Ideal S256x768 .f32) (v36 v37 : FVec Ideal S1024x256 .f32) (mv : Vec Ideal S1024x1 .f32)
    (av : Vec Ideal S1024x768 .f32) (s : Fin 1024) (d : Fin 768) :
    k0_pay18 (F := Ideal) v6 v36 v37 mv av (ix2 s d)
      = Ideal.exp (mv (ix2 s 0) - (max (mv (ix2 s 0)) ((Finset.univ : Finset (Fin 256)).fold max ⊥ (fun j => k0_pay13 (F := Ideal) v36 v37 (ix2 s j))))) * av (ix2 s d)
        + (((∑ j : Fin 256, Ideal.exp (k0_pay13 (F := Ideal) v36 v37 (ix2 s j) - (max (mv (ix2 s 0)) ((Finset.univ : Finset (Fin 256)).fold max ⊥ (fun j => k0_pay13 (F := Ideal) v36 v37 (ix2 s j))))) * v6 (ix2 j d))
            + ∑ j : Fin 256, Ideal.exp (k0_pay13 (F := Ideal) v36 v37 (ix2 s j) - (max (mv (ix2 s 0)) ((Finset.univ : Finset (Fin 256)).fold max ⊥ (fun j => k0_pay13 (F := Ideal) v36 v37 (ix2 s j))))) * (v6 (ix2 j d) - v6 (ix2 j d)))
          + ∑ j : Fin 256, (Ideal.exp (k0_pay13 (F := Ideal) v36 v37 (ix2 s j) - (max (mv (ix2 s 0)) ((Finset.univ : Finset (Fin 256)).fold max ⊥ (fun j => k0_pay13 (F := Ideal) v36 v37 (ix2 s j)))))
              - Ideal.exp (k0_pay13 (F := Ideal) v36 v37 (ix2 s j) - (max (mv (ix2 s 0)) ((Finset.univ : Finset (Fin 256)).fold max ⊥ (fun j => k0_pay13 (F := Ideal) v36 v37 (ix2 s j)))))) * v6 (ix2 j d)) := by
  unfold k0_pay18
  simp only [shapeCast_self, addf_apply, mulf_apply, subf_apply, truncf_apply, matmulB_apply, broadcastTo_a1_ab_apply,
    pay15_at, pay16_at]

/-- Two carried states with equal fields are equal. -/
private theorem St_mk_congr {a a' b b' : EReal} {c c' : Fin 768 → EReal} (h1 : a = a') (h2 : b = b') (h3 : ∀ d, c d = c' d) :
    St.mk a b c = St.mk a' b' c' := by
  rw [h1, h2, funext h3]

/-- One tile's update of row `s`'s carried state: the three stored payloads, read at row `s`, are the tile-level step
    of what was carried, from the tile's logits and the tile's rows of `q`. -/
theorem tile_step_apply (v6 : FVec Ideal S256x768 .f32) (v36 v37 : FVec Ideal S1024x256 .f32)
    (mv lv : Vec Ideal S1024x1 .f32) (av : Vec Ideal S1024x768 .f32) (s : Fin 1024) :
    stOf (k0_pay19 (F := Ideal) v36 v37 mv) (k0_pay17 (F := Ideal) v36 v37 mv lv) (k0_pay18 (F := Ideal) v6 v36 v37 mv av) s
      = tstep (fun j => k0_pay13 (F := Ideal) v36 v37 (ix2 s j)) (blkW v6) (stOf mv lv av s) := by
  exact St_mk_congr (pay19_at v36 v37 mv s) (pay17_at v36 v37 mv lv s) (fun d => pay18_at v6 v36 v37 mv av s d)

/-! ## The four pieces the last tile stores -/

/-- Piece 0: `h` itself. -/
theorem pay2_apply (v4 : FVec Ideal S1024x768 .f32) (s : Fin 1024) (d : Fin 768) :
    k0_pay2 (F := Ideal) v4 (ix3 0 s d) = v4 (ix2 s d) := by
  unfold k0_pay2
  exact shapeCast_ab_1ab_apply v4 _ 0 s d

/-- Piece 1: the context, numerator over denominator. -/
theorem pay3_apply (av : Vec Ideal S1024x768 .f32) (lv : Vec Ideal S1024x1 .f32) (s : Fin 1024) (d : Fin 768) :
    k0_pay3 (F := Ideal) av lv (ix3 0 s d) = Ideal.div (av (ix2 s d)) (lv (ix2 s 0)) := by
  unfold k0_pay3
  exact (shapeCast_ab_1ab_apply _ _ 0 s d).trans (pay1_apply av lv s d)

/-- Piece 2: `h` times the context. -/
theorem pay4_apply (v4 : FVec Ideal S1024x768 .f32) (av : Vec Ideal S1024x768 .f32) (lv : Vec Ideal S1024x1 .f32)
    (s : Fin 1024) (d : Fin 768) :
    k0_pay4 (F := Ideal) v4 av lv (ix3 0 s d) = v4 (ix2 s d) * Ideal.div (av (ix2 s d)) (lv (ix2 s 0)) := by
  unfold k0_pay4
  exact (shapeCast_ab_1ab_apply _ _ 0 s d).trans (congrArg (v4 (ix2 s d) * ·) (pay1_apply av lv s d))

/-- Piece 3: `h` times the gate (the softmax over the rows of the running maxima), times the context. -/
theorem pay5_apply (v4 : FVec Ideal S1024x768 .f32) (av : Vec Ideal S1024x768 .f32) (lv mv mv' : Vec Ideal S1024x1 .f32)
    (s : Fin 1024) (d : Fin 768) :
    k0_pay5 (F := Ideal) v4 av lv mv mv' (ix3 0 s d)
      = (v4 (ix2 s d)
          * Ideal.div (Ideal.exp (mv' (ix2 s 0) - (Finset.univ : Finset (Fin 1024)).fold max ⊥ (fun s' => mv (ix2 s' 0))))
              (∑ s' : Fin 1024, Ideal.exp (mv' (ix2 s' 0) - (Finset.univ : Finset (Fin 1024)).fold max ⊥ (fun s' => mv (ix2 s' 0)))))
        * Ideal.div (av (ix2 s d)) (lv (ix2 s 0)) := by
  unfold k0_pay5
  refine (shapeCast_ab_1ab_apply _ _ 0 s d).trans ?_
  simp only [mulf_apply, pay1_apply, broadcastTo_a1_ab_apply, divf_apply, broadcastTo_1b_ab_apply, shapeCast_a_1a_apply,
    exp_apply, subf_apply]
  erw [reduceMax_col mv, reduceAdd_col]
  simp only [exp_apply, subf_apply, broadcastTo_1b_ab_apply, shapeCast_a_1a_apply]
  erw [reduceMax_col mv]

end Cert.KernelIdeal.Bridge

end
-- ==== Proof.Args.lean ====
/-
  The six argument arrays of the idealized kernel, read from a memory as functions of their coordinates: the two
  batches `h`, `q` by (batch, row, feature), the two weight matrices by (row, feature), the two bias vectors by row.
  These are the inputs of the mathematics in the specification module.
-/
import proofs.«418724_j11922829214354_3_alg».proof.KernelIdeal
import proofs.«418724_j11922829214354_3_alg».proof.Proof.Spec
import Idealize.ShloMosaic.Lib.ValueIdx

noncomputable section

namespace Cert.KernelIdeal.Bridge

open Cert.KernelIdeal Idealize.ShloMosaic Idealize.ShloMosaic.TcCoe Idealize.ShloMosaic.ValueIdx

variable (m : (ℓ : Loc nD τ sig) → Buf (Elt Ideal) ℓ) (c : Dev nD)

/-- `h`: entry (batch, row, feature) of the first argument. -/
def argH : Fin 16 → Fin 1024 → Fin 768 → EReal := fun b s d => m ((c : Thread nD τ).loc main_arg0) (ix3 b s d)
/-- `q`: entry (batch, row, feature) of the second argument. -/
def argQ : Fin 16 → Fin 1024 → Fin 768 → EReal := fun b t d => m ((c : Thread nD τ).loc main_arg1) (ix3 b t d)
/-- `w1`: entry (row, feature) of the third argument. -/
def argW1 : Fin 1024 → Fin 768 → EReal := fun t d => m ((c : Thread nD τ).loc main_arg2) (ix2 t d)
/-- `b1`: entry (row) of the fourth argument. -/
def argB1 : Fin 1024 → EReal := fun t => m ((c : Thread nD τ).loc main_arg3) (ix1 t)
/-- `w2`: entry (row, feature) of the fifth argument. -/
def argW2 : Fin 1024 → Fin 768 → EReal := fun s d => m ((c : Thread nD τ).loc main_arg4) (ix2 s d)
/-- `b2`: entry (row) of the sixth argument. -/
def argB2 : Fin 1024 → EReal := fun s => m ((c : Thread nD τ).loc main_arg5) (ix1 s)

end Cert.KernelIdeal.Bridge

end
-- ==== Proof.Blocks.lean ====
/-
  The blocks the kernel body finds at a grid point, entry by entry. The grid has 16 × 4 points; point `t` works on batch
  `t / 4` and on tile `t % 4` of that batch's `q`. Window 0 stages the whole batch `h[t/4]`, window 1 the 256 rows
  `256 (t%4) … 256 (t%4) + 255` of `q[t/4]`, windows 2 and 4 the whole matrices `w1` and `w2`, windows 3 and 5 the
  two bias vectors after the host has recast them as a [1, 1024] row and a [1024, 1] column.
-/
import proofs.«418724_j11922829214354_3_alg».proof.Proof.Gen.KernelIdeal.Frame
import proofs.«418724_j11922829214354_3_alg».proof.Proof.Args
import Idealize.ShloMosaic.Lib.ValueIdx
import Idealize.ShloMosaic.Lib.Pipeline.Value

noncomputable section

namespace Cert.KernelIdeal.Bridge

open Cert.KernelIdeal Cert.KernelIdeal.Gen Idealize.ShloMosaic Idealize.ShloMosaic.TcCoe Idealize.ShloMosaic.ValueIdx Cert.Attn

variable (m : (ℓ : Loc nD τ sig) → Buf (Elt Ideal) ℓ)

/-- The batch a grid point works on. -/
def ptB (t : Fin cfg0.N) : Fin 16 := ⟨t.val / 4, by have h1 := t.isLt; have h2 : cfg0.N = 64 := N_0; omega⟩

/-- Window 0's block at a point, at its literal type: a [1, 1024, 768] slab of `h`. -/
abbrev hblk (c : Dev nD) (t : Fin cfg0.N) : Vec Ideal S1x1024x768 .f32 := iblk m c 0 t
/-- Window 1's block at a point: a [1, 256, 768] tile of `q`. -/
abbrev qblk (c : Dev nD) (t : Fin cfg0.N) : Vec Ideal S1x256x768 .f32 := iblk m c 1 t
/-- Window 2's block at a point: the whole [1024, 768] matrix `w1`. -/
abbrev w1blk (c : Dev nD) (t : Fin cfg0.N) : Vec Ideal S1024x768 .f32 := iblk m c 2 t
/-- Window 3's block at a point: `b1` as a [1, 1024] row. -/
abbrev b1blk (c : Dev nD) (t : Fin cfg0.N) : Vec Ideal S1x1024 .f32 := iblk m c 3 t
/-- Window 4's block at a point: the whole [1024, 768] matrix `w2`. -/
abbrev w2blk (c : Dev nD) (t : Fin cfg0.N) : Vec Ideal S1024x768 .f32 := iblk m c 4 t
/-- Window 5's block at a point: `b2` as a [1024, 1] column. -/
abbrev b2blk (c : Dev nD) (t : Fin cfg0.N) : Vec Ideal S1024x1 .f32 := iblk m c 5 t

/-! ## The printed index maps, decided once over the 64 grid points -/

/-- Window 0's block index at point `t` is `(t / 4, 0, 0)`. -/
theorem idx_facts0 : ∀ t : Fin cfg0.N, win0_0.index t (0 : Fin 3) = t.val / 4 ∧ win0_0.index t (1 : Fin 3) = 0
    ∧ win0_0.index t (2 : Fin 3) = 0 :=
  (by decide +kernel : ∀ t : Fin grid0.N, _)

/-- Window 1's block index at point `t` is `(t / 4, t % 4, 0)`. -/
theorem idx_facts1 : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)

/-- Window 2's block index is `(0, 0)` at every point. -/
theorem idx_facts2 : ∀ t : Fin cfg0.N, win0_2.index t (0 : Fin 2) = 0 ∧ win0_2.index t (1 : Fin 2) = 0 :=
  (by decide +kernel : ∀ t : Fin grid0.N, _)

/-- Window 3's block index is `(0, 0)` at every point. -/
theorem idx_facts3 : ∀ t : Fin cfg0.N, win0_3.index t (0 : Fin 2) = 0 ∧ win0_3.index t (1 : Fin 2) = 0 :=
  (by decide +kernel : ∀ t : Fin grid0.N, _)

/-- Window 4's block index is `(0, 0)` at every point. -/
theorem idx_facts4 : ∀ t : Fin cfg0.N, win0_4.index t (0 : Fin 2) = 0 ∧ win0_4.index t (1 : Fin 2) = 0 :=
  (by decide +kernel : ∀ t : Fin grid0.N, _)

/-- Window 5's block index is `(0, 0)` at every point. -/
theorem idx_facts5 : ∀ t : Fin cfg0.N, win0_5.index t (0 : Fin 2) = 0 ∧ win0_5.index t (1 : Fin 2) = 0 :=
  (by decide +kernel : ∀ t : Fin grid0.N, _)

/-! ## The blocks, entry by entry: a block's coordinate is its index times its size plus the coordinate inside it -/

/-- Window 0's block holds batch `t / 4` of `h`. -/
theorem hblk_apply (c : Dev nD) (t : Fin cfg0.N) (s : Fin 1024) (d : Fin 768) :
    hblk m c t (ix3 0 s d) = argH m c (ptB t) s d := by
  obtain ⟨e0, e1, e2⟩ := idx_facts0 t
  show V m c main_arg0 (((cfg0.win 0).blk t).view.emb (ix3 0 s d)) = argH m c (ptB t) s d
  have hi : ((cfg0.win 0).blk t).view.emb (ix3 0 s d) = ix3 (ptB t) s d := by
    funext a; apply Fin.ext
    match a with
    | ⟨0, _⟩ => show win0_0.index t (0 : Fin 3) * 1 + 1 * 0 = t.val / 4; omega
    | ⟨1, _⟩ => show win0_0.index t (1 : Fin 3) * 1024 + 1 * s.val = s.val; omega
    | ⟨2, _⟩ => show win0_0.index t (2 : Fin 3) * 768 + 1 * d.val = d.val; omega
  rw [hi, V_main_arg0]
  rfl

/-- Window 1's block holds tile `t % 4` of batch `t / 4` of `q`. -/
theorem qblk_apply (c : Dev nD) (t : Fin cfg0.N) (j : Fin 256) (d : Fin 768) :
    qblk m c t (ix3 0 j d) = argQ m c (ptB t) (tileIdx (t.val % 4) j) d := by
  obtain ⟨e0, e1, e2⟩ := idx_facts1 t
  show V m c main_arg1 (((cfg0.win 1).blk t).view.emb (ix3 0 j d)) = argQ m c (ptB t) (tileIdx (t.val % 4) j) d
  have hi : ((cfg0.win 1).blk t).view.emb (ix3 0 j d) = ix3 (ptB t) (tileIdx (t.val % 4) j) d := by
    funext a; apply Fin.ext
    have hj : j.val < 256 := j.isLt
    match a with
    | ⟨0, _⟩ => show win0_1.index t (0 : Fin 3) * 1 + 1 * 0 = t.val / 4; omega
    | ⟨1, _⟩ => show win0_1.index t (1 : Fin 3) * 256 + 1 * j.val = (256 * (t.val % 4) + j.val) % 1024; omega
    | ⟨2, _⟩ => show win0_1.index t (2 : Fin 3) * 768 + 1 * d.val = d.val; omega
  rw [hi, V_main_arg1]
  rfl

/-- Window 2's block holds `w1`. -/
theorem w1blk_apply (c : Dev nD) (t : Fin cfg0.N) (r : Fin 1024) (d : Fin 768) :
    w1blk m c t (ix2 r d) = argW1 m c r d := by
  obtain ⟨e0, e1⟩ := idx_facts2 t
  show V m c main_arg2 (((cfg0.win 2).blk t).view.emb (ix2 r d)) = argW1 m c r d
  have hi : ((cfg0.win 2).blk t).view.emb (ix2 r d) = ix2 r d := by
    funext a; apply Fin.ext
    match a with
    | ⟨0, _⟩ => show win0_2.index t (0 : Fin 2) * 1024 + 1 * r.val = r.val; omega
    | ⟨1, _⟩ => show win0_2.index t (1 : Fin 2) * 768 + 1 * d.val = d.val; omega
  rw [hi, V_main_arg2]
  rfl

/-- Window 3's block holds `b1` as a row. -/
theorem b1blk_apply (c : Dev nD) (t : Fin cfg0.N) (r : Fin 1024) :
    b1blk m c t (ix2 0 r) = argB1 m c r := by
  obtain ⟨e0, e1⟩ := idx_facts3 t
  show V m c main_v0 (((cfg0.win 3).blk t).view.emb (ix2 0 r)) = argB1 m c r
  have hi : ((cfg0.win 3).blk t).view.emb (ix2 0 r) = ix2 0 r := by
    funext a; apply Fin.ext
    match a with
    | ⟨0, _⟩ => show win0_3.index t (0 : Fin 2) * 1 + 1 * 0 = 0; omega
    | ⟨1, _⟩ => show win0_3.index t (1 : Fin 2) * 1024 + 1 * r.val = r.val; omega
  rw [hi]
  have e : (V m c main_v0 : S1x1024.Idx → EReal)
      = shapeCast S1x1024 (m ((c : Thread nD τ).loc main_arg3) : S1024.Idx → EReal) Facts₀.shapeCasts_S1024_S1x1024 := by
    dsimp only [Gen.V, Gen.hostOps0]; after_results; rfl
  have hk : (S1024.rowMajor (ix1 r)).val = (S1x1024.rowMajor (ix2 0 r)).val := by
    rw [Shape.rowMajor_val_one, Shape.rowMajor_val_two]
    show r.val = 0 * 1024 + r.val
    omega
  rw [e, shapeCast_apply _ _ (ix2 0 r) (ix1 r) hk]
  rfl

/-- Window 4's block holds `w2`. -/
theorem w2blk_apply (c : Dev nD) (t : Fin cfg0.N) (s : Fin 1024) (d : Fin 768) :
    w2blk m c t (ix2 s d) = argW2 m c s d := by
  obtain ⟨e0, e1⟩ := idx_facts4 t
  show V m c main_arg4 (((cfg0.win 4).blk t).view.emb (ix2 s d)) = argW2 m c s d
  have hi : ((cfg0.win 4).blk t).view.emb (ix2 s d) = ix2 s d := by
    funext a; apply Fin.ext
    match a with
    | ⟨0, _⟩ => show win0_4.index t (0 : Fin 2) * 1024 + 1 * s.val = s.val; omega
    | ⟨1, _⟩ => show win0_4.index t (1 : Fin 2) * 768 + 1 * d.val = d.val; omega
  rw [hi, V_main_arg4]
  rfl

/-- Window 5's block holds `b2` as a column. -/
theorem b2blk_apply (c : Dev nD) (t : Fin cfg0.N) (s : Fin 1024) :
    b2blk m c t (ix2 s 0) = argB2 m c s := by
  obtain ⟨e0, e1⟩ := idx_facts5 t
  show V m c main_v1 (((cfg0.win 5).blk t).view.emb (ix2 s 0)) = argB2 m c s
  have hi : ((cfg0.win 5).blk t).view.emb (ix2 s 0) = ix2 s 0 := by
    funext a; apply Fin.ext
    match a with
    | ⟨0, _⟩ => show win0_5.index t (0 : Fin 2) * 1024 + 1 * s.val = s.val; omega
    | ⟨1, _⟩ => show win0_5.index t (1 : Fin 2) * 1 + 1 * 0 = 0; omega
  rw [hi]
  have e : (V m c main_v1 : S1024x1.Idx → EReal)
      = shapeCast S1024x1 (m ((c : Thread nD τ).loc main_arg5) : S1024.Idx → EReal) Facts₀.shapeCasts_S1024_S1024x1 := by
    dsimp only [Gen.V, Gen.hostOps0]; after_results; rfl
  have hk : (S1024.rowMajor (ix1 s)).val = (S1024x1.rowMajor (ix2 s 0)).val := by
    rw [Shape.rowMajor_val_one, Shape.rowMajor_val_two]
    show s.val = s.val * 1 + 0
    omega
  rw [e, shapeCast_apply _ _ (ix2 s 0) (ix1 s) hk]
  rfl

end Cert.KernelIdeal.Bridge

end
-- ==== Proof.FinalPieces.lean ====
/-
  The four pieces the last tile stores, stated over one batch's rows of `h` and the rows' carried states: the context
  is a row's numerator over its denominator; the gate is the softmax, over the rows, of the rows' running maxima.
  With the states the specification's kernel arrangement reaches after its fourth tile these are its `kpiece`.
-/
import proofs.«418724_j11922829214354_3_alg».proof.Proof.Tile

noncomputable section

namespace Cert.Attn

open Idealize.ShloMosaic
open scoped BigOperators

/-- Piece `p` at (row `s`, feature `d`) from the batch's `h` and every row's carried state. -/
def fpiece (hb : Fin 1024 → Fin 768 → EReal) (σ : Fin 1024 → St) (p : Fin 4) (s : Fin 1024) (d : Fin 768) : EReal :=
  match p with
  | 0 => hb s d
  | 1 => Ideal.div ((σ s).acc d) (σ s).l
  | 2 => hb s d * Ideal.div ((σ s).acc d) (σ s).l
  | 3 => (hb s d
            * Ideal.div (Ideal.exp ((σ s).m - (Finset.univ : Finset (Fin 1024)).fold max ⊥ (fun s' => (σ s').m)))
                (∑ s' : Fin 1024, Ideal.exp ((σ s').m - (Finset.univ : Finset (Fin 1024)).fold max ⊥ (fun s' => (σ s').m))))
          * Ideal.div ((σ s).acc d) (σ s).l

/-- The specification's kernel pieces are these, at the states after the fourth tile. -/
theorem kpiece_eq_fpiece (h q : Fin 16 → Fin 1024 → Fin 768 → EReal) (w1 w2 : Fin 1024 → Fin 768 → EReal) (b1 b2 : Fin 1024 → EReal)
    (p : Fin 4) (b : Fin 16) (s : Fin 1024) (d : Fin 768) :
    kpiece h q w1 w2 b1 b2 p b s d = fpiece (h b) (fun s => kstate h q w1 w2 b1 b2 b s 3) p s d := by
  match p with
  | 0 => rfl
  | 1 => rfl
  | 2 => rfl
  | 3 => rfl

end Cert.Attn

end
-- ==== Proof.PointStep.lean ====
/-
  One grid point's work in the specification's terms. At point `t` (batch `t / 4`, tile `t % 4`) the tile's logits are
  the specification's kernel logits at the tile's rows of `q`; the three vectors the point stores are, row by row, the
  specification's step at tile `t % 4` of what was carried; the reset values are the initial state; and the four
  payloads the last tile stores are the four pieces, from the batch's `h` and the rows' states.
-/
import proofs.«418724_j11922829214354_3_alg».proof.Proof.Pieces
import proofs.«418724_j11922829214354_3_alg».proof.Proof.PayAt
import proofs.«418724_j11922829214354_3_alg».proof.Proof.Blocks
import proofs.«418724_j11922829214354_3_alg».proof.Proof.FinalPieces

noncomputable section

namespace Cert.KernelIdeal.Bridge

open Cert.KernelIdeal Cert.KernelIdeal.Gen Idealize.ShloMosaic Idealize.ShloMosaic.TcCoe Idealize.ShloMosaic.ValueIdx Cert.Attn

variable (m : (ℓ : Loc nD τ sig) → Buf (Elt Ideal) ℓ) (c : Dev nD)

/-- The tile's logits at point `t`, before the second bias. -/
abbrev v36At (t : Fin cfg0.N) : FVec Ideal S1024x256 .f32 :=
  tileV36 (grid0.coords t) (hblk m c t) (qblk m c t) (w1blk m c t) (b1blk m c t) (w2blk m c t)
/-- The second bias, broadcast along the tile. -/
abbrev v37At (t : Fin cfg0.N) : FVec Ideal S1024x256 .f32 := k0_pay12 (b2blk m c t)
/-- The tile of `q` at point `t` as a [256, 768] matrix. -/
abbrev v6At (t : Fin cfg0.N) : FVec Ideal S256x768 .f32 := k0_pay10 (qblk m c t)

/-- The tile's logits at point `t` are the specification's kernel logits of batch `t / 4` at the tile's rows. -/
theorem logits_at (t : Fin cfg0.N) (s : Fin 1024) (j : Fin 256) :
    k0_pay13 (F := Ideal) (v36At m c t) (v37At m c t) (ix2 s j)
      = klogit (argH m c) (argQ m c) (argW1 m c) (argW2 m c) (argB1 m c) (argB2 m c) (ptB t) s (tileIdx (t.val % 4) j) := by
  -- the six blocks, as functions of coordinates, are the six arguments at batch `t / 4` and the tile's rows
  have hH : blkH (hblk m c t) = argH m c (ptB t) :=
    funext fun s => funext fun d => hblk_apply m c t s d
  have hQ : blkQ (qblk m c t) = fun j => argQ m c (ptB t) (tileIdx (t.val % 4) j) :=
    funext fun j => funext fun d => qblk_apply m c t j d
  have hW1 : blkW (w1tile (grid0.coords t) (w1blk m c t)) = fun j => argW1 m c (tileIdx (t.val % 4) j) :=
    funext fun j => funext fun d =>
      (w1tile_apply t (w1blk m c t) j d).trans (w1blk_apply m c t (tileIdx (t.val % 4) j) d)
  have hB1 : blkB1 (b1tile (grid0.coords t) (b1blk m c t)) = fun j => argB1 m c (tileIdx (t.val % 4) j) :=
    funext fun j => (b1tile_apply t (b1blk m c t) j).trans (b1blk_apply m c t (tileIdx (t.val % 4) j))
  have hW2 : blkW2 (w2blk m c t) = argW2 m c :=
    funext fun s => funext fun d => w2blk_apply m c t s d
  have hB2 : blkB2 (b2blk m c t) = argB2 m c :=
    funext fun s => b2blk_apply m c t s
  rw [klogit_tile]
  show k0_pay13 (F := Ideal)
      (k0_pay11 (hblk m c t) (qblk m c t) (w1tile (grid0.coords t) (w1blk m c t)) (b1tile (grid0.coords t) (b1blk m c t))
        (w2blk m c t))
      (k0_pay12 (b2blk m c t)) (ix2 s j) = _
  rw [tile_logit_apply, hH, hQ, hW1, hB1, hW2, hB2]

/-- The tile of `q` at point `t` holds rows `tileIdx (t % 4) j` of batch `t / 4`. -/
theorem qtile_at (t : Fin cfg0.N) :
    blkW (v6At m c t) = fun j => argQ m c (ptB t) (tileIdx (t.val % 4) j) := by
  funext j d
  show k0_pay10 (F := Ideal) (qblk m c t) (ix2 j d) = argQ m c (ptB t) (tileIdx (t.val % 4) j) d
  rw [pay10_apply]
  exact qblk_apply m c t j d

/-- The block of `h` at point `t` holds batch `t / 4`. -/
theorem hrows_at (t : Fin cfg0.N) : blkH (hblk m c t) = argH m c (ptB t) := by
  funext s d
  exact hblk_apply m c t s d

/-- The reset values are the initial state of every row. -/
theorem reset_state (s : Fin 1024) : stOf (k0_pay8 (F := Ideal)) (k0_pay7 (F := Ideal)) (k0_pay6 (F := Ideal)) s = St.init := by
  have h6 : (fun d : Fin 768 => k0_pay6 (F := Ideal) (ix2 s d)) = fun _ => 0 := funext fun d => pay6_apply s d
  show St.mk (k0_pay8 (F := Ideal) (ix2 s 0)) (k0_pay7 (F := Ideal) (ix2 s 0)) (fun d : Fin 768 => k0_pay6 (F := Ideal) (ix2 s d))
    = St.mk ⊥ 0 (fun _ => 0)
  rw [pay8_apply, pay7_apply, h6]

/-- The three vectors point `t` stores, from any carried vectors, are row by row the specification's step at tile
    `t % 4` of the carried state. -/
theorem point_step (t : Fin cfg0.N) (mv lv : Vec Ideal S1024x1 .f32) (av : Vec Ideal S1024x768 .f32) (s : Fin 1024) :
    stOf (k0_pay19 (F := Ideal) (v36At m c t) (v37At m c t) mv) (k0_pay17 (F := Ideal) (v36At m c t) (v37At m c t) mv lv)
        (k0_pay18 (F := Ideal) (v6At m c t) (v36At m c t) (v37At m c t) mv av) s
      = step (klogit (argH m c) (argQ m c) (argW1 m c) (argW2 m c) (argB1 m c) (argB2 m c) (ptB t) s) (argQ m c (ptB t)) (t.val % 4) (stOf mv lv av s) := by
  have hl : (fun j : Fin 256 => k0_pay13 (F := Ideal) (v36At m c t) (v37At m c t) (ix2 s j))
      = fun j => klogit (argH m c) (argQ m c) (argW1 m c) (argW2 m c) (argB1 m c) (argB2 m c) (ptB t) s (tileIdx (t.val % 4) j) :=
    funext fun j => logits_at m c t s j
  rw [tile_step_apply, step_eq_tstep, hl, qtile_at]

/-- The four payloads the last tile stores, from the block of `h` and any three carried vectors, are the four pieces
    of the batch's `h` and the rows' states. -/
theorem out_payload_at (t : Fin cfg0.N) (mv lv : Vec Ideal S1024x1 .f32) (av : Vec Ideal S1024x768 .f32)
    (p : Fin 4) (s : Fin 1024) (d : Fin 768) :
    (match p with
      | 0 => k0_pay2 (F := Ideal) (k0_pay9 (hblk m c t))
      | 1 => k0_pay3 (F := Ideal) av lv
      | 2 => k0_pay4 (F := Ideal) (k0_pay9 (hblk m c t)) av lv
      | 3 => k0_pay5 (F := Ideal) (k0_pay9 (hblk m c t)) av lv mv mv) (ix3 (0 : Fin 1) s d)
      = fpiece (argH m c (ptB t)) (stOf mv lv av) p s d := by
  match p with
  | 0 =>
    show k0_pay2 (F := Ideal) (k0_pay9 (hblk m c t)) (ix3 (0 : Fin 1) s d) = argH m c (ptB t) s d
    rw [pay2_apply, pay9_apply]
    exact hblk_apply m c t s d
  | 1 =>
    show k0_pay3 (F := Ideal) av lv (ix3 (0 : Fin 1) s d) = Ideal.div (av (ix2 s d)) (lv (ix2 s 0))
    exact pay3_apply av lv s d
  | 2 =>
    show k0_pay4 (F := Ideal) (k0_pay9 (hblk m c t)) av lv (ix3 (0 : Fin 1) s d)
      = argH m c (ptB t) s d * Ideal.div (av (ix2 s d)) (lv (ix2 s 0))
    rw [pay4_apply, pay9_apply, hblk_apply]
  | 3 =>
    show k0_pay5 (F := Ideal) (k0_pay9 (hblk m c t)) av lv mv mv (ix3 (0 : Fin 1) s d)
      = (argH m c (ptB t) s d
          * Ideal.div (Ideal.exp (mv (ix2 s 0) - (Finset.univ : Finset (Fin 1024)).fold max ⊥ (fun s' => mv (ix2 s' 0))))
              (∑ s' : Fin 1024, Ideal.exp (mv (ix2 s' 0) - (Finset.univ : Finset (Fin 1024)).fold max ⊥ (fun s' => mv (ix2 s' 0)))))
        * Ideal.div (av (ix2 s d)) (lv (ix2 s 0))
    rw [pay5_apply, pay9_apply, hblk_apply]

end Cert.KernelIdeal.Bridge

end
-- ==== Proof.Induct.lean ====
/-
  The walk over the grid. The frame certificate names what the kernel's three carried vectors and its output buffer
  hold after each grid point, case by case (first tile, middle tile, last tile), each case over what the point before
  left. By induction on the point, row by row, the carried vectors after point `t` are the specification's kernel state
  of batch `t / 4` after tile `t % 4`: a first tile steps from the reset values, which are the initial state; any
  other tile steps from the state the point before reached, which is in the same batch, one tile earlier. At a last
  tile the output buffer's four pieces are then the specification's kernel pieces.
-/
import proofs.«418724_j11922829214354_3_alg».proof.Proof.PointStep

noncomputable section

namespace Cert.KernelIdeal.Bridge

open Cert.KernelIdeal Cert.KernelIdeal.Gen Idealize.ShloMosaic Idealize.ShloMosaic.TcCoe Idealize.ShloMosaic.ValueIdx Cert.Attn

variable (m : (ℓ : Loc nD τ sig) → Buf (Elt Ideal) ℓ) (c : Dev nD)

/-- The running numerator after point `t`. -/
abbrev accAt (t : Fin cfg0.N) : Vec Ideal S1024x768 .f32 := (outsAt0 m c t.val t.isLt).2.1
/-- The running denominator after point `t`. -/
abbrev lAt (t : Fin cfg0.N) : Vec Ideal S1024x1 .f32 := (outsAt0 m c t.val t.isLt).2.2.1
/-- The running maximum after point `t`. -/
abbrev mAt (t : Fin cfg0.N) : Vec Ideal S1024x1 .f32 := (outsAt0 m c t.val t.isLt).2.2.2

/-- The point before `t` (itself at the first point, where it is not used). -/
private abbrev prevPt (t : Fin cfg0.N) : Fin cfg0.N := ⟨t.val - 1, Nat.lt_of_le_of_lt (Nat.sub_le _ _) t.isLt⟩

/-- At a first tile the three carried vectors are the tile's update of the reset values. -/
private theorem carried_first (t : Fin cfg0.N) (h0 : t.val % 4 = 0) :
    mAt m c t = k0_pay19 (F := Ideal) (v36At m c t) (v37At m c t) (k0_pay8 (F := Ideal))
    ∧ lAt m c t = k0_pay17 (F := Ideal) (v36At m c t) (v37At m c t) (k0_pay8 (F := Ideal)) (k0_pay7 (F := Ideal))
    ∧ accAt m c t = k0_pay18 (F := Ideal) (v6At m c t) (v36At m c t) (v37At m c t) (k0_pay8 (F := Ideal)) (k0_pay6 (F := Ideal)) := by
  have h1 : ¬t.val % 4 = 3 := by omega
  refine ⟨?_, ?_, ?_⟩
  · show (outsAt0 m c t.val t.isLt).2.2.2 = _
    rw [outsAt0_A m c t h0 h1]; dsimp only
    exact sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) ((hcond0_0 t).mpr h0) (fun h => h1 ((hcond0_1 t).mp h))
  · show (outsAt0 m c t.val t.isLt).2.2.1 = _
    rw [outsAt0_A m c t h0 h1]; dsimp only
    exact sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) ((hcond0_0 t).mpr h0) (fun h => h1 ((hcond0_1 t).mp h))
  · show (outsAt0 m c t.val t.isLt).2.1 = _
    rw [outsAt0_A m c t h0 h1]; dsimp only
    exact sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) ((hcond0_0 t).mpr h0) (fun h => h1 ((hcond0_1 t).mp h))

/-- At any other tile the three carried vectors are the tile's update of what the point before left. -/
private theorem carried_next (t : Fin cfg0.N) (h0 : ¬t.val % 4 = 0) :
    mAt m c t = k0_pay19 (F := Ideal) (v36At m c t) (v37At m c t) (mAt m c (prevPt t))
    ∧ lAt m c t = k0_pay17 (F := Ideal) (v36At m c t) (v37At m c t) (mAt m c (prevPt t)) (lAt m c (prevPt t))
    ∧ accAt m c t = k0_pay18 (F := Ideal) (v6At m c t) (v36At m c t) (v37At m c t) (mAt m c (prevPt t)) (accAt m c (prevPt t)) := by
  by_cases h1 : t.val % 4 = 3
  · refine ⟨?_, ?_, ?_⟩
    · show (outsAt0 m c t.val t.isLt).2.2.2 = _
      rw [outsAt0_C m c t h0 h1]; dsimp only
      exact sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · show (outsAt0 m c t.val t.isLt).2.2.1 = _
      rw [outsAt0_C m c t h0 h1]; dsimp only
      exact sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · show (outsAt0 m c t.val t.isLt).2.1 = _
      rw [outsAt0_C m c t h0 h1]; dsimp only
      exact sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · refine ⟨?_, ?_, ?_⟩
    · show (outsAt0 m c t.val t.isLt).2.2.2 = _
      rw [outsAt0_B m c t h0 h1]; dsimp only
      exact sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · show (outsAt0 m c t.val t.isLt).2.2.1 = _
      rw [outsAt0_B m c t h0 h1]; dsimp only
      exact sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · show (outsAt0 m c t.val t.isLt).2.1 = _
      rw [outsAt0_B m c t h0 h1]; dsimp only
      exact sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) (fun h => h0 ((hcond0_0 t).mp h)) (fun h => h1 ((hcond0_1 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- A first tile steps from the reset values, which are the initial state. -/
private theorem carried_of_first (t : Fin cfg0.N) (h0 : t.val % 4 = 0) (s : Fin 1024) :
    stOf (mAt m c t) (lAt m c t) (accAt m c t) s = kstate (argH m c) (argQ m c) (argW1 m c) (argW2 m c) (argB1 m c) (argB2 m c) (ptB t) s (t.val % 4) := by
  obtain ⟨e2, e1, e0⟩ := carried_first m c t h0
  rw [e2, e1, e0, point_step m c t, reset_state, h0]
  rfl

/-- Any other tile steps from the state the point before reached: the same batch, one tile earlier. -/
private theorem carried_of_next (t : Fin cfg0.N) (h0 : ¬t.val % 4 = 0)
    (ih : ∀ s, stOf (mAt m c (prevPt t)) (lAt m c (prevPt t)) (accAt m c (prevPt t)) s
      = kstate (argH m c) (argQ m c) (argW1 m c) (argW2 m c) (argB1 m c) (argB2 m c) (ptB (prevPt t)) s ((prevPt t).val % 4)) (s : Fin 1024) :
    stOf (mAt m c t) (lAt m c t) (accAt m c t) s = kstate (argH m c) (argQ m c) (argW1 m c) (argW2 m c) (argB1 m c) (argB2 m c) (ptB t) s (t.val % 4) := by
  obtain ⟨e2, e1, e0⟩ := carried_next m c t h0
  have hb : ptB (prevPt t) = ptB t := Fin.ext (by show (t.val - 1) / 4 = t.val / 4; omega)
  obtain ⟨k, hk⟩ : ∃ k, t.val % 4 = k + 1 := ⟨t.val % 4 - 1, by omega⟩
  have hk' : (prevPt t).val % 4 = k := by show (t.val - 1) % 4 = k; omega
  rw [e2, e1, e0, point_step m c t, ih s, hb, hk, hk']
  rfl

/-- The invariant at every point, by induction on the point's position. -/
private theorem carried_aux (n : ℕ) : ∀ t : Fin cfg0.N, t.val = n → ∀ s : Fin 1024,
    stOf (mAt m c t) (lAt m c t) (accAt m c t) s = kstate (argH m c) (argQ m c) (argW1 m c) (argW2 m c) (argB1 m c) (argB2 m c) (ptB t) s (t.val % 4) := by
  induction n with
  | zero =>
    intro t ht s
    exact carried_of_first m c t (by omega) s
  | succ n ih =>
    intro t ht s
    by_cases h0 : t.val % 4 = 0
    · exact carried_of_first m c t h0 s
    · exact carried_of_next m c t h0 (ih (prevPt t) (by show t.val - 1 = n; omega)) s

/-- After point `t` the carried vectors hold, row by row, the specification's kernel state of batch `t / 4` after
    tile `t % 4`. -/
theorem carried_eq (t : Fin cfg0.N) (s : Fin 1024) :
    stOf (mAt m c t) (lAt m c t) (accAt m c t) s
      = kstate (argH m c) (argQ m c) (argW1 m c) (argW2 m c) (argB1 m c) (argB2 m c) (ptB t) s (t.val % 4) := by
  exact carried_aux m c t.val t rfl s

/-- At a last tile the output's staging buffer holds the specification's four kernel pieces of batch `t / 4`. -/
theorem out_at (t : Fin cfg0.N) (h3 : t.val % 4 = 3) (p : Fin 4) (s : Fin 1024) (d : Fin 768) :
    (outsAt0 m c t.val t.isLt).1 (ix3 (0 : Fin 1) s (colIdx p d))
      = kpiece (argH m c) (argQ m c) (argW1 m c) (argW2 m c) (argB1 m c) (argB2 m c) p (ptB t) s d := by
  have h0 : ¬t.val % 4 = 0 := by omega
  have h1 : t.val % 4 = 3 := h3
  obtain ⟨e2, e1, e0⟩ := carried_next m c t h0
  have hσ : stOf (mAt m c t) (lAt m c t) (accAt m c t)
      = fun s' => kstate (argH m c) (argQ m c) (argW1 m c) (argW2 m c) (argB1 m c) (argB2 m c) (ptB t) s' 3 :=
    funext fun s' => by rw [carried_eq m c t s', h3]
  rw [kpiece_eq_fpiece, ← hσ, ← out_payload_at m c t (mAt m c t) (lAt m c t) (accAt m c t) p s d, e2, e1, e0,
    outsAt0_C m c t h0 h1]
  dsimp only
  exact out_C_6_at (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (hblk m c t) (qblk m c t) (w1blk m c t) (b1blk m c t) (w2blk m c t) (b2blk m c t) (fun h => h0 ((hcond0_0 t).mp h)) ((hcond0_1 t).mpr h1) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 p s d

end Cert.KernelIdeal.Bridge

end
-- ==== Proof.Cover.lean ====
/-
  The result array is written back block by block: the output window's block at point `t` is the slab of batch `t / 4`
  (all 1024 rows, all 3072 columns), and it is written back at the last tile's points, `t % 4 = 3`. Sixteen such
  points, one per batch, cover the array; and entry (0, s, j) of the block at point `t` is entry (t / 4, s, j) of the array.
-/
import proofs.«418724_j11922829214354_3_alg».proof.Proof.Blocks

noncomputable section

namespace Cert.KernelIdeal.Bridge

open Cert.KernelIdeal Cert.KernelIdeal.Gen Idealize.ShloMosaic Idealize.ShloMosaic.TcCoe Idealize.ShloMosaic.ValueIdx

/-- Window 6's block index at point `t` is `(t / 4, 0, 0)`. -/
theorem idx_facts6 : ∀ t : Fin cfg0.N, win0_6.index t (0 : Fin 3) = t.val / 4 ∧ win0_6.index t (1 : Fin 3) = 0
    ∧ win0_6.index t (2 : Fin 3) = 0 :=
  (by decide +kernel : ∀ t : Fin grid0.N, _)

/-- Every index of the result array is in the block of some point that writes the window back. -/
theorem cover6 (i : S16x1024x3072.Idx) :
    ∃ t : Fin cfg0.N, (cfg0.win 6).flush t = true ∧ i ∈ ((cfg0.win 6).blk t).view.set := by
  have hN : cfg0.N = 64 := N_0
  have h0 : (i 0).val < 16 := (i 0).isLt
  have h1 : (i 1).val < 1024 := (i 1).isLt
  have h2 : (i 2).val < 3072 := (i 2).isLt
  -- the last tile's point of batch `i 0`
  obtain ⟨t, htv⟩ : ∃ t : Fin cfg0.N, t.val = 4 * (i 0).val + 3 := ⟨⟨4 * (i 0).val + 3, by omega⟩, rfl⟩
  obtain ⟨e0, e1, e2⟩ := idx_facts6 t
  refine ⟨t, (flush0_6 t).mpr (by omega), ?_⟩
  show i ∈ ((View.whole main_v2).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1024 ≤ (i 1).val ∧ (i 1).val < win0_6.index t (1 : Fin 3) * 1024 + 1024
    omega
  | ⟨2, _⟩ =>
    show win0_6.index t (2 : Fin 3) * 3072 ≤ (i 2).val ∧ (i 2).val < win0_6.index t (2 : Fin 3) * 3072 + 3072
    omega

/-- The output window's block at point `t`, read off an array `G`, at (0, s, j) is `G` at (t / 4, s, j). -/
theorem blk6_read_apply (t : Fin cfg0.N) (G : S16x1024x3072.Idx → EReal) (s : Fin 1024) (j : Fin 3072) :
    (((cfg0.win 6).blk t).view.read (Elt Ideal) G : S1x1024x3072.Idx → EReal) (ix3 0 s j) = G (ix3 (ptB t) s j) := by
  obtain ⟨e0, e1, e2⟩ := idx_facts6 t
  show G (((cfg0.win 6).blk t).view.emb (ix3 0 s j)) = G (ix3 (ptB t) s j)
  refine congrArg G (funext fun a => Fin.ext ?_)
  match a with
  | ⟨0, _⟩ => show win0_6.index t (0 : Fin 3) * 1 + 1 * 0 = t.val / 4; omega
  | ⟨1, _⟩ => show win0_6.index t (1 : Fin 3) * 1024 + 1 * s.val = s.val; omega
  | ⟨2, _⟩ => show win0_6.index t (2 : Fin 3) * 3072 + 1 * j.val = j.val; omega

end Cert.KernelIdeal.Bridge

end
-- ==== Proof.Online.lean ====
/-
  The tiled softmax is the softmax. A row of 1024 finite logits `a` is walked in four tiles of 256; the carried state
  keeps the largest logit seen so far `m`, the sum `l` of `exp (a t - m)` over the logits seen so far, and per feature
  the sum `acc` of `exp (a t - m) · v t`. When a tile raises the maximum from `m` to `m'` what was carried is rescaled by
  `exp (m - m')`, because `exp (a - m) · exp (m - m') = exp (a - m')`; before the first tile `m = -∞` and the factor is
  `exp (-∞) = 0` against sums that are zero. The remainders `x - x` the kernel adds are zero on finite values. So
  after the fourth tile the state is the one-pass softmax's: the maximum over all 1024 logits and the two sums over
  all of them.
-/
import proofs.«418724_j11922829214354_3_alg».proof.Proof.Spec
import proofs.«418724_j11922829214354_3_alg».proof.Proof.LibReal

noncomputable section

namespace Cert.Attn

open Idealize.ShloMosaic Cert.LibReal
open scoped BigOperators

/-! ## Three laws of finite reals -/

/-- On a finite real the remainder `x - x` is zero. -/
private theorem sub_self_of_isReal {x : EReal} (hx : IsReal x) : x - x = 0 := by
  obtain ⟨r, rfl⟩ := hx
  rw [← EReal.coe_sub, sub_self, EReal.coe_zero]

/-- A finite real distributes over a finite sum of finite reals. -/
private theorem mul_sum_of_isReal {ι : Type*} {c : EReal} (hc : IsReal c) (S : Finset ι) (g : ι → EReal)
    (hg : ∀ i ∈ S, IsReal (g i)) : c * ∑ i ∈ S, g i = ∑ i ∈ S, c * g i := by
  classical
  induction S using Finset.induction_on with
  | empty => rw [Finset.sum_empty, Finset.sum_empty, mul_zero]
  | insert i S hi ih =>
    rw [Finset.sum_insert hi, Finset.sum_insert hi, ← ih fun j hj => hg j (Finset.mem_insert_of_mem hj)]
    obtain ⟨r, rfl⟩ := hc
    obtain ⟨x, hx⟩ := hg i (Finset.mem_insert_self _ _)
    obtain ⟨y, hy⟩ := IsReal.sum S g fun j hj => hg j (Finset.mem_insert_of_mem hj)
    rw [hx, hy, ← EReal.coe_add, ← EReal.coe_mul, mul_add, EReal.coe_add, EReal.coe_mul, EReal.coe_mul]

/-- The rescaling law: `exp (m - m') · (exp (x - m) · w) = exp (x - m') · w` on finite reals. -/
private theorem rescale_term {x m m' w : EReal} (hx : IsReal x) (hm : IsReal m) (hm' : IsReal m') (hw : IsReal w) :
    Ideal.exp (m - m') * (Ideal.exp (x - m) * w) = Ideal.exp (x - m') * w := by
  obtain ⟨x, rfl⟩ := hx; obtain ⟨m, rfl⟩ := hm; obtain ⟨m', rfl⟩ := hm'; obtain ⟨w, rfl⟩ := hw
  have h : m - m' + (x - m) = x - m' := by ring
  rw [← EReal.coe_sub, ← EReal.coe_sub, ← EReal.coe_sub, Ideal.exp_coe, Ideal.exp_coe, Ideal.exp_coe,
    ← EReal.coe_mul, ← EReal.coe_mul, ← EReal.coe_mul, ← mul_assoc, ← Real.exp_add, h]

/-! ## The maximum and the weighted sum over an index set, and how a larger maximum rescales the sum -/

/-- Carried sums against the carried maximum, rescaled to any finite `m'`, are the sums against `m'`. Over the empty
    index set both sides are zero, whatever the factor `exp (-∞ - m')` is. -/
private theorem rescale_sum {ι : Type*} (S : Finset ι) (f w : ι → EReal) (hf : ∀ i ∈ S, IsReal (f i))
    (hw : ∀ i ∈ S, IsReal (w i)) {m' : EReal} (hm' : IsReal m') :
    Ideal.exp (S.fold max ⊥ f - m') * ∑ t ∈ S, Ideal.exp (f t - S.fold max ⊥ f) * w t
      = ∑ t ∈ S, Ideal.exp (f t - m') * w t := by
  rcases S.eq_empty_or_nonempty with rfl | hS
  · rw [Finset.sum_empty, Finset.sum_empty, mul_zero]
  · have hm : IsReal (S.fold max ⊥ f) := IsReal.fold_max S hS f hf
    rw [mul_sum_of_isReal (hm.sub hm').exp S _ fun i hi => (((hf i hi).sub hm).exp).mul (hw i hi)]
    exact Finset.sum_congr rfl fun i hi => rescale_term (hf i hi) hm hm' (hw i hi)

/-- The same without weights. -/
private theorem rescale_sum_one {ι : Type*} (S : Finset ι) (f : ι → EReal) (hf : ∀ i ∈ S, IsReal (f i))
    {m' : EReal} (hm' : IsReal m') :
    Ideal.exp (S.fold max ⊥ f - m') * ∑ t ∈ S, Ideal.exp (f t - S.fold max ⊥ f)
      = ∑ t ∈ S, Ideal.exp (f t - m') := by
  have h := rescale_sum S f (fun _ => 1) hf (fun _ _ => isReal_one) hm'
  simp only [mul_one] at h
  exact h

/-- The maximum over a disjoint union is the maximum of the two maxima. -/
private theorem fold_max_union {ι : Type*} [DecidableEq ι] (S T : Finset ι) (h : Disjoint S T) (f : ι → EReal) :
    (S ∪ T).fold max ⊥ f = max (S.fold max ⊥ f) (T.fold max ⊥ f) := by
  have e := Finset.fold_union_inter (op := max) (f := f) (s₁ := S) (s₂ := T) (b₁ := ⊥) (b₂ := ⊥)
  rw [Finset.disjoint_iff_inter_eq_empty.mp h, Finset.fold_empty, max_eq_left bot_le] at e
  exact e

/-! ## The four tiles as index sets -/

/-- For the four tiles the remainder in `tileIdx` is the identity. -/
private theorem tileIdx_val {k : ℕ} (hk : k ≤ 3) (j : Fin 256) : (tileIdx k j).val = 256 * k + j.val := by
  have := j.isLt
  show (256 * k + j.val) % 1024 = 256 * k + j.val
  exact Nat.mod_eq_of_lt (by omega)

/-- Distinct rows of a tile are distinct rows of the whole. -/
private theorem tileIdx_injective {k : ℕ} (hk : k ≤ 3) : Function.Injective (tileIdx k) := by
  intro i j h
  have h' := congrArg Fin.val h
  rw [tileIdx_val hk, tileIdx_val hk] at h'
  exact Fin.ext (by omega)

/-- The rows of tile `k`. -/
private def tile (k : ℕ) : Finset (Fin 1024) := Finset.univ.image (tileIdx k)

/-- The rows before tile `k`. -/
private def seen (k : ℕ) : Finset (Fin 1024) := Finset.univ.filter fun t => t.val < 256 * k

private theorem mem_tile {k : ℕ} (hk : k ≤ 3) (t : Fin 1024) :
    t ∈ tile k ↔ 256 * k ≤ t.val ∧ t.val < 256 * (k + 1) := by
  unfold tile
  rw [Finset.mem_image]
  constructor
  · rintro ⟨j, _, rfl⟩
    have := j.isLt
    rw [tileIdx_val hk]; omega
  · rintro ⟨h1, h2⟩
    refine ⟨⟨t.val - 256 * k, by omega⟩, Finset.mem_univ _, Fin.ext ?_⟩
    rw [tileIdx_val hk]
    show 256 * k + (t.val - 256 * k) = t.val
    omega

private theorem mem_seen (k : ℕ) (t : Fin 1024) : t ∈ seen k ↔ t.val < 256 * k := by
  unfold seen
  rw [Finset.mem_filter]
  exact ⟨fun h => h.2, fun h => ⟨Finset.mem_univ _, h⟩⟩

private theorem seen_disjoint_tile {k : ℕ} (hk : k ≤ 3) : Disjoint (seen k) (tile k) := by
  rw [Finset.disjoint_left]
  intro t h1 h2
  rw [mem_seen] at h1
  rw [mem_tile hk] at h2
  omega

private theorem seen_union_tile {k : ℕ} (hk : k ≤ 3) : seen k ∪ tile k = seen (k + 1) := by
  ext t
  rw [Finset.mem_union, mem_seen, mem_seen, mem_tile hk]
  omega

private theorem seen_zero : seen 0 = ∅ := by
  ext t
  rw [mem_seen]
  simp

private theorem seen_four : seen 4 = Finset.univ := by
  ext t
  rw [mem_seen]
  have := t.isLt
  simp only [Finset.mem_univ, iff_true]
  omega

/-- A sum over the rows of a tile, by position in the tile or by row. -/
private theorem sum_tile {k : ℕ} (hk : k ≤ 3) (g : Fin 1024 → EReal) :
    ∑ j : Fin 256, g (tileIdx k j) = ∑ t ∈ tile k, g t := by
  unfold tile
  rw [Finset.sum_image fun i _ j _ h => tileIdx_injective hk h]

variable (a : Fin 1024 → EReal) (v : Fin 1024 → Fin 768 → EReal)

/-- The tile's maximum is the maximum over the tile's rows. -/
private theorem tileMax_eq {k : ℕ} (hk : k ≤ 3) : tileMax a k = (tile k).fold max ⊥ a := by
  unfold tile tileMax
  rw [Finset.fold_image fun i _ j _ h => tileIdx_injective hk h]
  rfl

/-! ## The invariant -/

/-- The one-pass softmax's maximum, denominator and numerator over an index set. -/
private def onePass (S : Finset (Fin 1024)) : St :=
  ⟨S.fold max ⊥ a, ∑ t ∈ S, Ideal.exp (a t - S.fold max ⊥ a),
    fun d => ∑ t ∈ S, Ideal.exp (a t - S.fold max ⊥ a) * v t d⟩

/-- A tile's update takes the one-pass state over the rows before the tile to the one-pass state over the rows up to
    and including the tile. -/
private theorem step_onePass (ha : ∀ t, IsReal (a t)) (hv : ∀ t d, IsReal (v t d)) {k : ℕ} (hk : k ≤ 3) :
    step a v k (onePass a v (seen k)) = onePass a v (seen (k + 1)) := by
  have hM : max ((seen k).fold max ⊥ a) (tileMax a k) = (seen (k + 1)).fold max ⊥ a := by
    rw [← seen_union_tile hk, fold_max_union _ _ (seen_disjoint_tile hk), tileMax_eq a hk]
  have hne : (seen (k + 1)).Nonempty := ⟨⟨0, by norm_num⟩, (mem_seen _ _).mpr (by show 0 < 256 * (k + 1); omega)⟩
  have hm' : IsReal ((seen (k + 1)).fold max ⊥ a) := IsReal.fold_max _ hne a fun t _ => ha t
  have hp : ∀ t, IsReal (Ideal.exp (a t - (seen (k + 1)).fold max ⊥ a)) := fun t => ((ha t).sub hm').exp
  unfold step onePass
  simp only []
  rw [St.mk.injEq, hM]
  refine ⟨rfl, ?_, funext fun d => ?_⟩
  · rw [rescale_sum_one (seen k) a (fun t _ => ha t) hm',
      sum_tile hk fun t => Ideal.exp (a t - (seen (k + 1)).fold max ⊥ a),
      ← Finset.sum_union (seen_disjoint_tile hk), seen_union_tile hk]
  · have z2 : ∑ j : Fin 256, Ideal.exp (a (tileIdx k j) - (seen (k + 1)).fold max ⊥ a)
        * (v (tileIdx k j) d - v (tileIdx k j) d) = 0 :=
      Finset.sum_eq_zero fun j _ => by rw [sub_self_of_isReal (hv _ _), mul_zero]
    have z3 : ∑ j : Fin 256, (Ideal.exp (a (tileIdx k j) - (seen (k + 1)).fold max ⊥ a)
        - Ideal.exp (a (tileIdx k j) - (seen (k + 1)).fold max ⊥ a)) * v (tileIdx k j) d = 0 :=
      Finset.sum_eq_zero fun j _ => by rw [sub_self_of_isReal (hp _), zero_mul]
    rw [z2, z3, add_zero, add_zero,
      rescale_sum (seen k) a (fun t => v t d) (fun t _ => ha t) (fun t _ => hv t d) hm',
      sum_tile hk fun t => Ideal.exp (a t - (seen (k + 1)).fold max ⊥ a) * v t d,
      ← Finset.sum_union (seen_disjoint_tile hk), seen_union_tile hk]

/-- After tile `k` the carried state is the one-pass state over the rows up to and including tile `k`. -/
private theorem state_eq (ha : ∀ t, IsReal (a t)) (hv : ∀ t d, IsReal (v t d)) :
    ∀ k : ℕ, k ≤ 3 → state a v k = onePass a v (seen (k + 1))
  | 0, hk => by
    have h0 : St.init = onePass a v (seen 0) := by
      rw [seen_zero]
      simp only [onePass, Finset.fold_empty, Finset.sum_empty]
      rfl
    show step a v 0 St.init = _
    rw [h0, step_onePass a v ha hv hk]
  | k + 1, hk => by
    show step a v (k + 1) (state a v k) = _
    rw [state_eq ha hv k (by omega), step_onePass a v ha hv hk]

/-- After the four tiles the running maximum is the maximum of all 1024 logits. -/
theorem state_m (ha : ∀ t, IsReal (a t)) (hv : ∀ t d, IsReal (v t d)) :
    (state a v 3).m = (Finset.univ : Finset (Fin 1024)).fold max ⊥ a := by
  rw [state_eq a v ha hv 3 le_rfl, seen_four]
  rfl

/-- After the four tiles the running denominator is the one-pass softmax's. -/
theorem state_l (ha : ∀ t, IsReal (a t)) (hv : ∀ t d, IsReal (v t d)) :
    (state a v 3).l = ∑ t : Fin 1024, Ideal.exp (a t - (Finset.univ : Finset (Fin 1024)).fold max ⊥ a) := by
  rw [state_eq a v ha hv 3 le_rfl, seen_four]
  rfl

/-- After the four tiles the running numerator is the one-pass softmax's, feature by feature. -/
theorem state_acc (ha : ∀ t, IsReal (a t)) (hv : ∀ t d, IsReal (v t d)) (d : Fin 768) :
    (state a v 3).acc d
      = ∑ t : Fin 1024, Ideal.exp (a t - (Finset.univ : Finset (Fin 1024)).fold max ⊥ a) * v t d := by
  rw [state_eq a v ha hv 3 le_rfl, seen_four]
  rfl

end Cert.Attn

end
-- ==== Proof.Algebra.lean ====
/-
  The kernel's arrangement equals the reference's on finite inputs.
  The logit: `h·(w1 + q) = h·w1 + h·q` term by term (distributivity, which needs finite values), the two remainders
  `x - x` vanish, and the five summands are then the reference's in another order. The context: the kernel divides the
  summed numerator by the summed denominator, the reference sums the quotients; the two agree because the denominator
  is a positive finite real. The gate is the same softmax taken over the rows' maxima.
-/
import proofs.«418724_j11922829214354_3_alg».proof.Proof.Online

noncomputable section

namespace Cert.Attn

open Idealize.ShloMosaic Cert.LibReal
open scoped BigOperators

variable {h q : Fin 16 → Fin 1024 → Fin 768 → EReal} {w1 w2 : Fin 1024 → Fin 768 → EReal} {b1 b2 : Fin 1024 → EReal}

/-- On finite inputs a logit is a finite real. -/
theorem isReal_logit (hf : FiniteArgs h q w1 w2 b1 b2) (b : Fin 16) (s t : Fin 1024) :
    IsReal (logit h q w1 w2 b1 b2 b s t) := by
  unfold logit
  exact (((IsReal.sum_univ _ fun d => (hf.h b s d).mul (hf.w1 t d)).add (hf.b1 t)).add
    ((IsReal.sum_univ _ fun d => (hf.q b t d).mul (hf.w2 s d)).add (hf.b2 s))).add
    (IsReal.sum_univ _ fun d => (hf.h b s d).mul (hf.q b t d))

/-- The identity of the two logits over the reals: the product distributes over `w1 + q`, the two remainders
    `x - x` are zero, and the five summands that are left are reordered (with `w2 · q = q · w2`). -/
private theorem real_logit_identity (H Q W1 W2 : Fin 768 → ℝ) (B1 B2 : ℝ) :
    (((((∑ d : Fin 768, H d * (W1 d + Q d))
          + ∑ d : Fin 768, H d * ((W1 d + Q d) - (W1 d + Q d)))
        + ∑ d : Fin 768, (H d - H d) * (W1 d + Q d))
      + ∑ d : Fin 768, W2 d * Q d)
      + B1)
      + B2
    = (((∑ d : Fin 768, H d * W1 d) + B1) + ((∑ d : Fin 768, Q d * W2 d) + B2)) + ∑ d : Fin 768, H d * Q d := by
  have h1 : ∑ d : Fin 768, H d * (W1 d + Q d) = (∑ d : Fin 768, H d * W1 d) + ∑ d : Fin 768, H d * Q d := by
    rw [← Finset.sum_add_distrib]; exact Finset.sum_congr rfl fun d _ => mul_add _ _ _
  have h2 : ∑ d : Fin 768, H d * ((W1 d + Q d) - (W1 d + Q d)) = 0 :=
    Finset.sum_eq_zero fun d _ => by rw [sub_self, mul_zero]
  have h3 : ∑ d : Fin 768, (H d - H d) * (W1 d + Q d) = 0 :=
    Finset.sum_eq_zero fun d _ => by rw [sub_self, zero_mul]
  have h4 : ∑ d : Fin 768, W2 d * Q d = ∑ d : Fin 768, Q d * W2 d :=
    Finset.sum_congr rfl fun d _ => mul_comm _ _
  rw [h1, h2, h3, h4]; ring

/-- On finite inputs the kernel's logit is the reference's. -/
theorem klogit_eq_logit (hf : FiniteArgs h q w1 w2 b1 b2) (b : Fin 16) (s t : Fin 1024) :
    klogit h q w1 w2 b1 b2 b s t = logit h q w1 w2 b1 b2 b s t := by
  obtain ⟨B1, hB1⟩ := hf.b1 t
  obtain ⟨B2, hB2⟩ := hf.b2 s
  choose H hH using fun d => hf.h b s d
  choose Q hQ using fun d => hf.q b t d
  choose W1 hW1 using fun d => hf.w1 t d
  choose W2 hW2 using fun d => hf.w2 s d
  unfold klogit logit
  simp only [hB1, hB2, hH, hQ, hW1, hW2]
  simp only [← EReal.coe_add, ← EReal.coe_sub, ← EReal.coe_mul, ← coe_finset_sum]
  exact congrArg _ (real_logit_identity H Q W1 W2 B1 B2)

/-- On finite inputs the kernel's logit is a finite real. -/
private theorem isReal_klogit (hf : FiniteArgs h q w1 w2 b1 b2) (b : Fin 16) (s t : Fin 1024) :
    IsReal (klogit h q w1 w2 b1 b2 b s t) := by
  rw [klogit_eq_logit hf]; exact isReal_logit hf b s t

/-- The kernel's logits of a row, as a function of `t`, are the reference's. -/
private theorem klogit_fun (hf : FiniteArgs h q w1 w2 b1 b2) (b : Fin 16) (s : Fin 1024) :
    klogit h q w1 w2 b1 b2 b s = logit h q w1 w2 b1 b2 b s :=
  funext fun t => klogit_eq_logit hf b s t

/-- The largest logit of a row is a finite real. -/
private theorem isReal_rowMax (hf : FiniteArgs h q w1 w2 b1 b2) (b : Fin 16) (s : Fin 1024) :
    IsReal (rowMax h q w1 w2 b1 b2 b s) :=
  IsReal.fold_max _ ⟨0, Finset.mem_univ _⟩ _ fun t _ => isReal_logit hf b s t

/-- After the last tile the running maximum of a row is the reference's largest logit. -/
private theorem kstate_m (hf : FiniteArgs h q w1 w2 b1 b2) (b : Fin 16) (s : Fin 1024) :
    (kstate h q w1 w2 b1 b2 b s 3).m = rowMax h q w1 w2 b1 b2 b s := by
  unfold kstate rowMax
  rw [state_m _ _ (fun t => isReal_klogit hf b s t) (fun t d => hf.q b t d), klogit_fun hf]

/-- After the last tile the running denominator of a row is the reference's. -/
private theorem kstate_l (hf : FiniteArgs h q w1 w2 b1 b2) (b : Fin 16) (s : Fin 1024) :
    (kstate h q w1 w2 b1 b2 b s 3).l
      = ∑ t : Fin 1024, Ideal.exp (logit h q w1 w2 b1 b2 b s t - rowMax h q w1 w2 b1 b2 b s) := by
  unfold kstate rowMax
  rw [state_l _ _ (fun t => isReal_klogit hf b s t) (fun t d => hf.q b t d), klogit_fun hf]

/-- After the last tile the running numerator of a row is the reference's unnormalised context. -/
private theorem kstate_acc (hf : FiniteArgs h q w1 w2 b1 b2) (b : Fin 16) (s : Fin 1024) (d : Fin 768) :
    (kstate h q w1 w2 b1 b2 b s 3).acc d
      = ∑ t : Fin 1024, Ideal.exp (logit h q w1 w2 b1 b2 b s t - rowMax h q w1 w2 b1 b2 b s) * q b t d := by
  unfold kstate rowMax
  rw [state_acc _ _ (fun t => isReal_klogit hf b s t) (fun t d => hf.q b t d), klogit_fun hf]

/-- The quotient of the summed numerator by the positive finite denominator is the sum of the quotients. -/
private theorem kctx_eq_ctx (hf : FiniteArgs h q w1 w2 b1 b2) (b : Fin 16) (s : Fin 1024) (d : Fin 768) :
    kctx h q w1 w2 b1 b2 b s d = ctx h q w1 w2 b1 b2 b s d := by
  have he : ∀ t, IsReal (Ideal.exp (logit h q w1 w2 b1 b2 b s t - rowMax h q w1 w2 b1 b2 b s)) :=
    fun t => ((isReal_logit hf b s t).sub (isReal_rowMax hf b s)).exp
  have hZ : IsPosReal (∑ t : Fin 1024, Ideal.exp (logit h q w1 w2 b1 b2 b s t - rowMax h q w1 w2 b1 b2 b s)) :=
    IsPosReal.sum _ ⟨0, Finset.mem_univ _⟩ _ fun t _ => ((isReal_logit hf b s t).sub (isReal_rowMax hf b s)).exp_pos
  unfold kctx ctx prob
  rw [kstate_acc hf, kstate_l hf]
  obtain ⟨z, hz, hZ'⟩ := hZ
  choose E hE using he
  choose Q hQ using fun t => hf.q b t d
  rw [hZ']
  simp only [hE, hQ]
  simp only [← EReal.coe_mul, ← coe_finset_sum, fun a => div_coe_coe a hz.ne']
  refine congrArg _ ?_
  rw [Finset.sum_div]
  exact Finset.sum_congr rfl fun t _ => by ring

/-- The kernel's largest logit of a batch is the reference's. -/
private theorem kcolMax_eq_colMax (hf : FiniteArgs h q w1 w2 b1 b2) (b : Fin 16) :
    kcolMax h q w1 w2 b1 b2 b = colMax h q w1 w2 b1 b2 b := by
  unfold kcolMax colMax
  exact congrArg (fun f => (Finset.univ : Finset (Fin 1024)).fold max ⊥ f) (funext fun s => kstate_m hf b s)

/-- The kernel's gate of a row is the reference's. -/
private theorem kgate_eq_gate (hf : FiniteArgs h q w1 w2 b1 b2) (b : Fin 16) (s : Fin 1024) :
    kgate h q w1 w2 b1 b2 b s = gate h q w1 w2 b1 b2 b s := by
  unfold kgate gate
  simp only [kstate_m hf, kcolMax_eq_colMax hf]

/-- On finite inputs each of the four pieces the kernel stores is the reference's. -/
theorem kpiece_eq_piece (hf : FiniteArgs h q w1 w2 b1 b2) (p : Fin 4) (b : Fin 16) (s : Fin 1024) (d : Fin 768) :
    kpiece h q w1 w2 b1 b2 p b s d = piece h q w1 w2 b1 b2 p b s d := by
  match p with
  | 0 => rfl
  | 1 => exact kctx_eq_ctx hf b s d
  | 2 => exact congrArg (fun x => h b s d * x) (kctx_eq_ctx hf b s d)
  | 3 =>
    show (h b s d * kgate h q w1 w2 b1 b2 b s) * kctx h q w1 w2 b1 b2 b s d
      = (h b s d * gate h q w1 w2 b1 b2 b s) * ctx h q w1 w2 b1 b2 b s d
    rw [kgate_eq_gate hf, kctx_eq_ctx hf]

end Cert.Attn

end
-- ==== Proof.Finite.lean ====
/-
  From the precondition to finite entries. The precondition says, of each of the six argument arrays, that every
  entry's absolute value is below `+∞` (six all-reductions joined by `and`); an extended real whose absolute value is
  below `+∞` is neither infinity, so it is a finite real. Hence every entry of every argument is a finite real.
-/
import proofs.«418724_j11922829214354_3_alg».proof.Defs
import proofs.«418724_j11922829214354_3_alg».proof.Proof.Args
import proofs.«418724_j11922829214354_3_alg».proof.Proof.LibReal
import Idealize.ShloMosaic.Lib.ReduceAll

noncomputable section

namespace Cert.KernelIdeal.Bridge

open Cert.KernelIdeal Idealize.ShloMosaic Idealize.ShloMosaic.TcCoe Idealize.ShloMosaic.ValueIdx Cert.LibReal

/-- A truth value whose one-bit word is `1` is true. -/
private theorem eq_true_of_ofBool_eq_one {b : Bool} (h : BitVec.ofBool b = 1#1) : b = true := by
  cases b
  · exact absurd h (by decide)
  · rfl

/-- If the conjunction, over every index of an array, of "the entry's absolute value is below `+∞`" is `1`, then
    every entry is a finite real: the conjunction gives the comparison at each index, the comparison says
    `max x (-x) < ⊤`, and such an `x` is neither infinity. -/
private theorem isReal_of_all_abs_lt_top {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ix0 = 1#1)
    (i : s.Idx) : IsReal (x i) := by
  haveI : Subsingleton Cert.Pre_finite_inputs.S_.Idx := ⟨fun a b => funext fun d => d.elim0⟩
  have h1 := Host.reduce_andi_all _ _ hr hu ix0 e i
  have h2 : Ideal.cmp .olt (max (x i) (-(x i))) (Ideal.ofBits .f32 0x7F800000#32) = 1#1 := h1
  rw [ofBits_pos_inf] at h2
  have h3 : max (x i) (-(x i)) < ⊤ := of_decide_eq_true (eq_true_of_ofBool_eq_one h2)
  exact isReal_of_abs_lt_top h3

/-- Under the precondition every entry of every argument array of the idealized kernel is a finite real. -/
theorem finiteArgs_of_pre [hP : Cert.Pre_finite_inputs.Facts]
    (m : (ℓ : Loc nD τ sig) → Buf (Elt Ideal) ℓ) (hpre : Cert.Pre_KernelIdeal m) (c : Dev nD) :
    Cert.Attn.FiniteArgs (argH m c) (argQ m c) (argW1 m c) (argW2 m c) (argB1 m c) (argB2 m c) := by
  have e := congrFun (hpre c) ix0
  dsimp only [Cert.Pre_finite_inputs.fn, Cert.Pre_finite_inputs.fn_part1, andi] at e
  simp only [IntOp.andi_eq_one] at e
  obtain ⟨⟨⟨⟨⟨e0, e1⟩, e2⟩, e3⟩, e4⟩, e5⟩ := e
  exact
    { h := fun b s d => isReal_of_all_abs_lt_top _ _ _ _ e0 (ix3 b s d)
      q := fun b s d => isReal_of_all_abs_lt_top _ _ _ _ e1 (ix3 b s d)
      w1 := fun t d => isReal_of_all_abs_lt_top _ _ _ _ e2 (ix2 t d)
      w2 := fun t d => isReal_of_all_abs_lt_top _ _ _ _ e4 (ix2 t d)
      b1 := fun t => isReal_of_all_abs_lt_top _ _ _ _ e3 (ix1 t)
      b2 := fun t => isReal_of_all_abs_lt_top _ _ _ _ e5 (ix1 t) }

end Cert.KernelIdeal.Bridge

end
-- ==== Proof.RefSpec.lean ====
/-
  The reference program read at an index is the specification's four pieces. Its 49 host operations compute, for
  entry (b, s, 768 p + d) of the result: the three matrix products and two biases that make the logit of row `s` of
  `h` against row `t` of `q` (the middle one transposed into place); the row's maximum (a fold of the maximum from
  `-∞`, joined once more with `-∞`, which changes nothing); the exponentials, their sum from zero, the quotient and the
  product with `q` (the context); the same softmax over the rows' maxima (the gate); and the concatenation of
  `h`, the context, their product and the gated product along the last axis.
-/
import proofs.«418724_j11922829214354_3_alg».proof.Proof.RefRead
import proofs.«418724_j11922829214354_3_alg».proof.Proof.Spec
import proofs.«418724_j11922829214354_3_alg».proof.Proof.Cols
import proofs.«418724_j11922829214354_3_alg».proof.Proof.LibReal
import Idealize.ShloMosaic.Lib.ValueIdx
import Idealize.ShloMosaic.Lib.Pipeline.Value
import Idealize.ShloMosaic.PureOps.Ideal.Laws

noncomputable section

namespace Cert.ReferenceIdeal.Bridge

open Cert.ReferenceIdeal Cert.ReferenceIdeal.Gen Cert.ReferenceIdeal.ReadP Idealize.ShloMosaic Idealize.ShloMosaic.ValueIdx Cert.Attn
open scoped BigOperators

/-- A [16, 1024, 768] array by (batch, row, feature). -/
def cur3 (x : (⟨S16x1024x768, .f32⟩ : BufTy).Contents (Elt Ideal)) : Fin 16 → Fin 1024 → Fin 768 → EReal :=
  fun b s d => x (ix3 b s d)
/-- A [1024, 768] matrix by (row, feature). -/
def cur2 (x : (⟨S1024x768, .f32⟩ : BufTy).Contents (Elt Ideal)) : Fin 1024 → Fin 768 → EReal := fun r d => x (ix2 r d)
/-- A [1024] vector by entry. -/
def cur1 (x : (⟨S1024, .f32⟩ : BufTy).Contents (Elt Ideal)) : Fin 1024 → EReal := fun r => x (ix1 r)

section
variable (x0 x1 : (⟨S16x1024x768, .f32⟩ : BufTy).Contents (Elt Ideal)) (x2 : (⟨S1024x768, .f32⟩ : BufTy).Contents (Elt Ideal)) (x3 : (⟨S1024, .f32⟩ : BufTy).Contents (Elt Ideal)) (x4 : (⟨S1024x768, .f32⟩ : BufTy).Contents (Elt Ideal)) (x5 : (⟨S1024, .f32⟩ : BufTy).Contents (Elt Ideal))

/-- Two indices of rank one, two or three with the same coordinates are equal. -/
local macro "idx_eq" : tactic =>
  `(tactic| (funext a; first
      | (match a with | ⟨0, _⟩ => rfl | ⟨1, _⟩ => rfl | ⟨2, _⟩ => rfl)
      | (match a with | ⟨0, _⟩ => rfl | ⟨1, _⟩ => rfl)
      | (match a with | ⟨0, _⟩ => rfl)))

/-! ## The logit -/

/-- The first product: row `s` of `h` against row `t` of `w1`. -/
private theorem v0_at (b : Fin 16) (s t : Fin 1024) :
    val_main_v0 (F := Ideal) x0 x2 (ix3 b s t) = ∑ d : Fin 768, cur3 x0 b s d * cur2 x2 t d := by
  rw [val_main_v0_apply]
  refine Finset.sum_congr rfl fun k _ => ?_
  exact congrArg₂ (· * ·) (congrArg x0 (by idx_eq)) (congrArg x2 (by idx_eq))

/-- The second product, before its transposition: row `t` of `q` against row `s` of `w2`, at (b, t, s). -/
private theorem v4_at (b : Fin 16) (t s : Fin 1024) :
    val_main_v4 (F := Ideal) x1 x4 (ix3 b t s) = ∑ d : Fin 768, cur3 x1 b t d * cur2 x4 s d := by
  rw [val_main_v4_apply]
  refine Finset.sum_congr rfl fun k _ => ?_
  exact congrArg₂ (· * ·) (congrArg x1 (by idx_eq)) (congrArg x4 (by idx_eq))

/-- The third product: row `s` of `h` against row `t` of `q`. -/
private theorem v8_at (b : Fin 16) (s t : Fin 1024) :
    val_main_v8 (F := Ideal) x0 x1 (ix3 b s t) = ∑ d : Fin 768, cur3 x0 b s d * cur3 x1 b t d := by
  rw [val_main_v8_apply]
  refine Finset.sum_congr rfl fun k _ => ?_
  exact congrArg₂ (· * ·) (congrArg x0 (by idx_eq)) (congrArg x1 (by idx_eq))

/-- The logit: the three products and the two biases, the second product read at the transposed index. -/
private theorem v11_at (b : Fin 16) (s t : Fin 1024) :
    val_main_v11 (F := Ideal) x0 x1 x2 x3 x4 x5 (ix3 b s t) = logit (cur3 x0) (cur3 x1) (cur2 x2) (cur2 x4) (cur1 x3) (cur1 x5) b s t := by
  rw [val_main_v11_apply, val_main_v10_apply, val_main_v3_apply, val_main_v9_apply, val_main_v7_apply,
    val_main_v2_apply, val_main_v1_apply, val_main_v6_apply, val_main_v5_apply,
    show idx_main_v9 (ix3 b s t) = ix3 b t s from by idx_eq, v0_at, v4_at, v8_at,
    show idx_main_v1 (idx_main_v2 (ix3 b s t)) = ix1 t from by idx_eq,
    show idx_main_v5 (idx_main_v6 (ix3 b t s)) = ix1 s from by idx_eq]
  rfl

/-! ## The two maxima -/

/-- A maximum-reduce of a [16, 1024, 1024] array along its last axis, from `-∞`, at (b, s): the fold of the maximum
    from `-∞` over `t` of the entries (b, s, t). -/
private theorem reduce_max_d2 (y : (⟨S16x1024x1024, .f32⟩ : BufTy).Contents (Elt Ideal)) (c : (⟨S_, .f32⟩ : BufTy).Contents (Elt Ideal))
    (hc : ∀ i, c i = (⊥ : EReal)) (b : Fin 16) (s : Fin 1024) :
    (Host.reduce (FloatOps.maximumf (F := Ideal) (φ := .f32)) y c reducesTo_S16x1024x1024_S16x1024_d2 h_S_ : (⟨S16x1024, .f32⟩ : BufTy).Contents (Elt Ideal)) (ix2 b s)
      = (Finset.univ : Finset (Fin 1024)).fold max (⊥ : EReal) (fun t => y (ix3 b s t)) := by
  rw [Host.reduce_eq_fold_single (FloatOps.maximumf (F := Ideal) (φ := .f32)) y c reducesTo_S16x1024x1024_S16x1024_d2 (by decide) h_S_, hc]
  exact Finset.fold_congr fun t _ => congrArg y (funext fun a => Fin.ext (by
    match a with | ⟨0, _⟩ => rfl | ⟨1, _⟩ => rfl | ⟨2, _⟩ => rfl))

/-- A maximum-reduce of a [16, 1024] array along its last axis, from `-∞`, at b: the fold over `s` of the entries (b, s). -/
private theorem reduce_max_d1 (y : (⟨S16x1024, .f32⟩ : BufTy).Contents (Elt Ideal)) (c : (⟨S_, .f32⟩ : BufTy).Contents (Elt Ideal))
    (hc : ∀ i, c i = (⊥ : EReal)) (b : Fin 16) :
    (Host.reduce (FloatOps.maximumf (F := Ideal) (φ := .f32)) y c reducesTo_S16x1024_S16_d1 h_S_ : (⟨S16, .f32⟩ : BufTy).Contents (Elt Ideal)) (ix1 b)
      = (Finset.univ : Finset (Fin 1024)).fold max (⊥ : EReal) (fun s => y (ix2 b s)) := by
  rw [Host.reduce_eq_fold_single (FloatOps.maximumf (F := Ideal) (φ := .f32)) y c reducesTo_S16x1024_S16_d1 (by decide) h_S_, hc]
  exact Finset.fold_congr fun s _ => congrArg y (funext fun a => Fin.ext (by
    match a with | ⟨0, _⟩ => rfl | ⟨1, _⟩ => rfl))

/-- The row's largest logit, as the softmax's reduction takes it. -/
private theorem v12_at (b : Fin 16) (s : Fin 1024) :
    val_main_v12 (F := Ideal) x0 x1 x2 x3 x4 x5 (ix2 b s) = rowMax (cur3 x0) (cur3 x1) (cur2 x2) (cur2 x4) (cur1 x3) (cur1 x5) b s := by
  unfold val_main_v12 rowMax
  rw [reduce_max_d2 (val_main_v11 (F := Ideal) x0 x1 x2 x3 x4 x5) val_main_cst (fun _ => Cert.LibReal.ofBits_neg_inf)]
  exact Finset.fold_congr fun t _ => v11_at x0 x1 x2 x3 x4 x5 b s t

/-- Joined once more with `-∞`: still the row's largest logit. -/
private theorem v14_at (b : Fin 16) (s : Fin 1024) :
    val_main_v14 (F := Ideal) x0 x1 x2 x3 x4 x5 (ix2 b s) = rowMax (cur3 x0) (cur3 x1) (cur2 x2) (cur2 x4) (cur1 x3) (cur1 x5) b s := by
  rw [val_main_v14_apply, val_main_v13_apply, val_main_cst_0_apply, v12_at]
  show max (Ideal.ofBits .f32 0xFF800000#32) _ = _
  rw [Cert.LibReal.ofBits_neg_inf, max_eq_right bot_le]

/-- The row's largest logit again, as the gate's reduction takes it. -/
private theorem v24_at (b : Fin 16) (s : Fin 1024) :
    val_main_v24 (F := Ideal) x0 x1 x2 x3 x4 x5 (ix2 b s) = rowMax (cur3 x0) (cur3 x1) (cur2 x2) (cur2 x4) (cur1 x3) (cur1 x5) b s := by
  unfold val_main_v24 rowMax
  rw [reduce_max_d2 (val_main_v11 (F := Ideal) x0 x1 x2 x3 x4 x5) val_main_cst_2 (fun _ => Cert.LibReal.ofBits_neg_inf)]
  exact Finset.fold_congr fun t _ => v11_at x0 x1 x2 x3 x4 x5 b s t

/-- The batch's largest logit: the maximum over the rows of their maxima, joined once more with `-∞`. -/
private theorem v27_at (b : Fin 16) :
    val_main_v27 (F := Ideal) x0 x1 x2 x3 x4 x5 (ix1 b) = colMax (cur3 x0) (cur3 x1) (cur2 x2) (cur2 x4) (cur1 x3) (cur1 x5) b := by
  rw [val_main_v27_apply, val_main_v26_apply, val_main_cst_4_apply]
  unfold val_main_v25 colMax
  rw [reduce_max_d1 (val_main_v24 (F := Ideal) x0 x1 x2 x3 x4 x5) val_main_cst_3 (fun _ => Cert.LibReal.ofBits_neg_inf)]
  show max (Ideal.ofBits .f32 0xFF800000#32) _ = _
  rw [Cert.LibReal.ofBits_neg_inf, max_eq_right bot_le]
  exact Finset.fold_congr fun s _ => v24_at x0 x1 x2 x3 x4 x5 b s

/-! ## The softmax over `t` and the context -/

/-- The exponential of the logit less the row's largest. -/
private theorem v18_at (b : Fin 16) (s t : Fin 1024) :
    val_main_v18 (F := Ideal) x0 x1 x2 x3 x4 x5 (ix3 b s t) = Ideal.exp (logit (cur3 x0) (cur3 x1) (cur2 x2) (cur2 x4) (cur1 x3) (cur1 x5) b s t - rowMax (cur3 x0) (cur3 x1) (cur2 x2) (cur2 x4) (cur1 x3) (cur1 x5) b s) := by
  rw [val_main_v18_apply, val_main_v17_apply, val_main_v16_apply, val_main_v15_apply,
    show idx_main_v15 (idx_main_v16 (ix3 b s t)) = ix2 b s from by idx_eq, v11_at, v14_at]
  rfl

/-- The softmax's denominator: the sum of those exponentials from zero. -/
private theorem v19_at (b : Fin 16) (s : Fin 1024) :
    val_main_v19 (F := Ideal) x0 x1 x2 x3 x4 x5 (ix2 b s) = ∑ t : Fin 1024, Ideal.exp (logit (cur3 x0) (cur3 x1) (cur2 x2) (cur2 x4) (cur1 x3) (cur1 x5) b s t - rowMax (cur3 x0) (cur3 x1) (cur2 x2) (cur2 x4) (cur1 x3) (cur1 x5) b s) := by
  rw [val_main_v19_apply, val_main_cst_1_apply]
  show Ideal.ofBits .f32 0x00000000#32 + _ = _
  rw [Ideal.ofBits_zero_f32, zero_add]
  refine Finset.sum_congr rfl fun t _ => ?_
  rw [show idx_main_v19 (ix2 b s) t = ix3 b s t from by idx_eq, v18_at]

/-- The softmax weight. -/
private theorem v22_at (b : Fin 16) (s t : Fin 1024) :
    val_main_v22 (F := Ideal) x0 x1 x2 x3 x4 x5 (ix3 b s t) = prob (cur3 x0) (cur3 x1) (cur2 x2) (cur2 x4) (cur1 x3) (cur1 x5) b s t := by
  rw [val_main_v22_apply, val_main_v21_apply, val_main_v20_apply,
    show idx_main_v20 (idx_main_v21 (ix3 b s t)) = ix2 b s from by idx_eq, v18_at, v19_at]
  rfl

/-- The context row. -/
private theorem v23_at (b : Fin 16) (s : Fin 1024) (d : Fin 768) :
    val_main_v23 (F := Ideal) x0 x1 x2 x3 x4 x5 (ix3 b s d) = ctx (cur3 x0) (cur3 x1) (cur2 x2) (cur2 x4) (cur1 x3) (cur1 x5) b s d := by
  rw [val_main_v23_apply]
  unfold ctx
  refine Finset.sum_congr rfl fun t _ => ?_
  rw [show lidx_main_v23 (ix3 b s d) t = ix3 b s t from by idx_eq, v22_at]
  exact congrArg₂ (· * ·) rfl (congrArg x1 (by idx_eq))

/-! ## The softmax over `s`: the gate -/

/-- The exponential of the row's largest logit less the batch's. -/
private theorem v31_at (b : Fin 16) (s : Fin 1024) :
    val_main_v31 (F := Ideal) x0 x1 x2 x3 x4 x5 (ix2 b s) = Ideal.exp (rowMax (cur3 x0) (cur3 x1) (cur2 x2) (cur2 x4) (cur1 x3) (cur1 x5) b s - colMax (cur3 x0) (cur3 x1) (cur2 x2) (cur2 x4) (cur1 x3) (cur1 x5) b) := by
  rw [val_main_v31_apply, val_main_v30_apply, val_main_v29_apply, val_main_v28_apply,
    show idx_main_v28 (idx_main_v29 (ix2 b s)) = ix1 b from by idx_eq, v24_at, v27_at]
  rfl

/-- The gate's denominator. -/
private theorem v32_at (b : Fin 16) :
    val_main_v32 (F := Ideal) x0 x1 x2 x3 x4 x5 (ix1 b) = ∑ s : Fin 1024, Ideal.exp (rowMax (cur3 x0) (cur3 x1) (cur2 x2) (cur2 x4) (cur1 x3) (cur1 x5) b s - colMax (cur3 x0) (cur3 x1) (cur2 x2) (cur2 x4) (cur1 x3) (cur1 x5) b) := by
  rw [val_main_v32_apply, val_main_cst_5_apply]
  show Ideal.ofBits .f32 0x00000000#32 + _ = _
  rw [Ideal.ofBits_zero_f32, zero_add]
  refine Finset.sum_congr rfl fun s _ => ?_
  rw [show idx_main_v32 (ix1 b) s = ix2 b s from by idx_eq, v31_at]

/-- The gate, broadcast along the features. -/
private theorem v37_at (b : Fin 16) (s : Fin 1024) (d : Fin 768) :
    val_main_v37 (F := Ideal) x0 x1 x2 x3 x4 x5 (ix3 b s d) = gate (cur3 x0) (cur3 x1) (cur2 x2) (cur2 x4) (cur1 x3) (cur1 x5) b s := by
  rw [val_main_v37_apply, val_main_v36_apply, show idx_main_v36 (idx_main_v37 (ix3 b s d)) = ix2 b s from by idx_eq,
    val_main_v35_apply, val_main_v34_apply, val_main_v33_apply,
    show idx_main_v33 (idx_main_v34 (ix2 b s)) = ix1 b from by idx_eq, v31_at, v32_at]
  rfl

/-! ## The four pieces -/

/-- A concatenation of four [16, 1024, 768] arrays along the last axis, at column `768 p + d`: the `p`-th array at `d`. -/
private theorem concat4_at (y0 y1 y2 y3 y : (⟨S16x1024x768, .f32⟩ : BufTy).Contents (Elt Ideal)) (p : Fin 4)
    (hy : [(⟨S16x1024x768, y0⟩ : (s : Shape) × (s.Idx → EReal)), ⟨S16x1024x768, y1⟩, ⟨S16x1024x768, y2⟩, ⟨S16x1024x768, y3⟩][p.val]'p.isLt
      = ⟨S16x1024x768, y⟩) (b : Fin 16) (s : Fin 1024) (d : Fin 768) :
    concatenate S16x1024x3072 2 [⟨S16x1024x768, y0⟩, ⟨S16x1024x768, y1⟩, ⟨S16x1024x768, y2⟩, ⟨S16x1024x768, y3⟩]
        concatenates_S16x1024x768_S16x1024x768_S16x1024x768_S16x1024x768_S16x1024x3072_d2 (ix3 b s (colIdx p d)) = y (ix3 b s d) := by
  refine concatenate_apply_piece (t := S16x1024x3072) 2
    [⟨S16x1024x768, y0⟩, ⟨S16x1024x768, y1⟩, ⟨S16x1024x768, y2⟩, ⟨S16x1024x768, y3⟩]
    concatenates_S16x1024x768_S16x1024x768_S16x1024x768_S16x1024x768_S16x1024x3072_d2 (ix3 b s (colIdx p d)) p.val p.isLt S16x1024x768 y hy rfl (768 * p.val) ?_ (ix3 b s d)
    (fun a h => match a with | ⟨0, _⟩ => rfl | ⟨1, _⟩ => rfl | ⟨2, _⟩ => absurd rfl h) rfl
  clear hy
  match p with | 0 => rfl | 1 => rfl | 2 => rfl | 3 => rfl

end

/-- Entry (b, s, 768 p + d) of the reference's result is piece `p` of the specification at (b, s, d), of the six
    argument arrays read by coordinates (`w1`, `b1`, `w2`, `b2` are the third to sixth arguments). -/
theorem ref_piece (x0 x1 : (⟨S16x1024x768, .f32⟩ : BufTy).Contents (Elt Ideal)) (x2 : (⟨S1024x768, .f32⟩ : BufTy).Contents (Elt Ideal))
    (x3 : (⟨S1024, .f32⟩ : BufTy).Contents (Elt Ideal)) (x4 : (⟨S1024x768, .f32⟩ : BufTy).Contents (Elt Ideal))
    (x5 : (⟨S1024, .f32⟩ : BufTy).Contents (Elt Ideal)) (p : Fin 4) (b : Fin 16) (s : Fin 1024) (d : Fin 768) :
    val_main_v41 (F := Ideal) x0 x1 x2 x3 x4 x5 (ix3 b s (colIdx p d))
      = piece (cur3 x0) (cur3 x1) (cur2 x2) (cur2 x4) (cur1 x3) (cur1 x5) p b s d := by
  unfold val_main_v41
  match p with
  | 0 => exact concat4_at _ _ _ _ x0 0 rfl b s d
  | 1 => exact (concat4_at _ _ _ _ _ 1 rfl b s d).trans (v23_at x0 x1 x2 x3 x4 x5 b s d)
  | 2 =>
    refine (concat4_at _ _ _ _ _ 2 rfl b s d).trans ?_
    rw [val_main_v39_apply, v23_at]; rfl
  | 3 =>
    refine (concat4_at _ _ _ _ _ 3 rfl b s d).trans ?_
    rw [val_main_v40_apply, val_main_v38_apply, v37_at, v23_at]; rfl

end Cert.ReferenceIdeal.Bridge

end
-- ==== Proof.Final.lean ====
/-
  From blocks to the whole result. The output window is written back at the last tile of each batch; what it writes
  is, entry by entry, the specification's kernel pieces of that batch, which on finite inputs are the reference's
  pieces, which are the reference's own result read at that entry. The sixteen written blocks cover the result
  array, so after the run the array is the reference's result as a function of the six argument arrays.
-/
import proofs.«418724_j11922829214354_3_alg».proof.Proof.Induct
import proofs.«418724_j11922829214354_3_alg».proof.Proof.Cover
import proofs.«418724_j11922829214354_3_alg».proof.Proof.Algebra
import proofs.«418724_j11922829214354_3_alg».proof.Proof.Finite
import proofs.«418724_j11922829214354_3_alg».proof.Proof.RefSpec
import proofs.«418724_j11922829214354_3_alg».proof.Proof.Gen.KernelIdeal.Value

noncomputable section

namespace Cert.KernelIdeal.Bridge

open Cert.KernelIdeal Cert.KernelIdeal.Gen Idealize.ShloMosaic Idealize.ShloMosaic.TcCoe Idealize.ShloMosaic.ValueIdx Cert.Attn
open Idealize.SL.Sem

variable (m : (ℓ : Loc nD τ sig) → Buf (Elt Ideal) ℓ) (c : Dev nD)

/-- The result both programs end with: the reference's result as a function of the kernel's six argument arrays. -/
def resultG : S16x1024x3072.Idx → EReal :=
  Cert.ReferenceIdeal.ReadP.val_main_v41 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- On finite inputs, entry (b, s, 768 p + d) of that result is the specification's kernel piece. -/
theorem resultG_at (hf : FiniteArgs (argH m c) (argQ m c) (argW1 m c) (argW2 m c) (argB1 m c) (argB2 m c)) (p : Fin 4) (b : Fin 16) (s : Fin 1024) (d : Fin 768) :
    resultG m c (ix3 b s (colIdx p d)) = kpiece (argH m c) (argQ m c) (argW1 m c) (argW2 m c) (argB1 m c) (argB2 m c) p b s d :=
  (Cert.ReferenceIdeal.Bridge.ref_piece _ _ _ _ _ _ p b s d).trans (kpiece_eq_piece hf p b s d).symm

/-- Every column of the result is column `d` of some piece `p`. -/
theorem exists_colIdx (j : Fin 3072) : ∃ (p : Fin 4) (d : Fin 768), j = colIdx p d :=
  ⟨⟨j.val / 768, by have := j.isLt; omega⟩, ⟨j.val % 768, Nat.mod_lt _ (by norm_num)⟩,
    Fin.ext (by rw [colIdx_val]; exact (Nat.div_add_mod j.val 768).symm)⟩

/-- What a last tile leaves in the output's staging buffer is the result's block of that batch. -/
theorem out_eq_block (hf : FiniteArgs (argH m c) (argQ m c) (argW1 m c) (argW2 m c) (argB1 m c) (argB2 m c)) (t : Fin cfg0.N) (h3 : t.val % 4 = 3) :
    ((outsAt0 m c t.val t.isLt).1 : S1x1024x3072.Idx → EReal)
      = (((cfg0.win 6).blk t).view.read (Elt Ideal) (resultG m c) : S1x1024x3072.Idx → EReal) := by
  funext y
  obtain ⟨s, j, rfl⟩ : ∃ (s : Fin 1024) (j : Fin 3072), y = ix3 (0 : Fin 1) s j :=
    ⟨y 1, y 2, by
      funext a
      match a with
      | ⟨0, _⟩ => exact Fin.eq_zero (y 0 : Fin 1)
      | ⟨1, _⟩ => rfl
      | ⟨2, _⟩ => rfl⟩
  obtain ⟨p, d, rfl⟩ := exists_colIdx j
  rw [blk6_read_apply, out_at m c t h3 p s d, resultG_at m c hf]

/-- What a write-back point writes back is the result's block there. -/
theorem flushed_eq (hf : FiniteArgs (argH m c) (argQ m c) (argW1 m c) (argW2 m c) (argB1 m c) (argB2 m c)) (t : Fin cfg0.N) (hfl : (cfg0.win 6).flush t = true) :
    (dats m 0 c).flushed 6 t = ((cfg0.win 6).blk t).view.read (Elt Ideal) (resultG m c) := by
  have h3 : t.val % 4 = 3 := (flush0_6 t).mp hfl
  rw [Cert.KernelIdeal.Value.flushed6]
  exact out_eq_block m c hf t h3

/-- After the run the result array holds the reference's result of the argument arrays. -/
theorem final (hf : FiniteArgs (argH m c) (argQ m c) (argW1 m c) (argW2 m c) (argB1 m c) (argB2 m c)) : (dats m 0 c).arrAt 6 cfg0.N = resultG m c :=
  (dats m 0 c).arrAt_eq_of_cover 6 (resultG m c) (fun t hfl => flushed_eq m c hf t hfl) cover6

/-- The idealized kernel's run, under the precondition: the result array at the reference's result of the argument
    arrays, the arguments unchanged. -/
theorem kernel_run [Cert.Pre_finite_inputs.Facts] (ρ : Dev nD → PrngReg) (hpre : Cert.Pre_KernelIdeal m) :
    θ_run (defs (F := Ideal)) (onTc (τ := τ) (main (F := Ideal))) ⟨m, fun _ => 0, ρ⟩ fun r => ∀ c : Dev nD,
      r.2.mem ((c : Thread nD τ).loc main_v2) = resultG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (finiteArgs_of_pre m hpre c)), (h c).2⟩)
    (Cert.KernelIdeal.Value.run_blocks m ρ)

end Cert.KernelIdeal.Bridge

end
-- ==== Proof.lean ====
/-
  The certificate: a fused attention kernel against its plain reference, over the extended reals.

  Both programs take two batches of sequences `h`, `q` (16 × 1024 rows of 768 features), two weight matrices and two
  bias vectors, and return, side by side along the last axis, `h`; the context `c` (the rows of `q` weighed by a softmax
  over `t` of the logits `h_s·w1_t + b1_t + q_t·w2_s + b2_s + h_s·q_t`); `h · c`; and `(h · g) · c`, where the gate `g` is a
  softmax over the rows `s` of the rows' largest logits. The reference takes each softmax in one pass over all 1024
  rows of `q`. The kernel walks them in four tiles of 256, carrying per row a running maximum, denominator and
  numerator that it rescales by `exp (m - m')` whenever the maximum grows from `m` to `m'`, and it forms each matrix
  product as a value plus two remainders `x - x`.

  On finite inputs the two agree exactly: a remainder `x - x` is zero; `h·(w1 + q) = h·w1 + h·q`; and since
  `exp (a - m) · exp (m - m') = exp (a - m')`, after the fourth tile the carried state is the one-pass softmax's maximum
  and sums, so the quotient of the sums is the sum of the quotients (the denominator is a positive real). Finiteness
  is what the precondition gives. The proof reads the reference's result at an index as those four pieces
  (`RefSpec`), reads what the kernel's last tile of each batch writes back as the same pieces (`Pieces`, `PayAt`,
  `Blocks`, `PointStep`, the induction over the grid in `Induct`, the algebra in `Online` and `Algebra`), and covers the
  result array with the sixteen written blocks (`Cover`, `Final`). Both runs then end with one and the same function of
  the argument arrays. The two kernel frames are the generated ones; the reference's frame is its run with the result
  dropped; the idealization's four entries are the rule's own statement (a bf16 round trip is the identity at the
  ideal values).
-/
import proofs.«418724_j11922829214354_3_alg».proof.Defs
import proofs.«418724_j11922829214354_3_alg».proof.Proof.Gen.Kernel
import proofs.«418724_j11922829214354_3_alg».proof.Proof.Gen.Kernel.Frame
import proofs.«418724_j11922829214354_3_alg».proof.Proof.Gen.KernelIdeal
import proofs.«418724_j11922829214354_3_alg».proof.Proof.Gen.KernelIdeal.Frame
import proofs.«418724_j11922829214354_3_alg».proof.Proof.Gen.ReferenceIdeal
import proofs.«418724_j11922829214354_3_alg».proof.Proof.Gen.Pre_finite_inputs
import proofs.«418724_j11922829214354_3_alg».proof.Proof.RefRun
import proofs.«418724_j11922829214354_3_alg».proof.Proof.RefRead
import proofs.«418724_j11922829214354_3_alg».proof.Proof.Final

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization's four entries: a round trip through bf16 is the identity at the ideal values, and the
    rounding it is at the word level. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- From memories that agree on the arguments, the idealized kernel and the reference both end with the
    reference's result as a function of the argument arrays. -/
theorem algebraic : Cert.algebraic_KernelIdeal_ReferenceIdeal := by
  intro m ρ m' ρ' hpre hagree
  refine ⟨fun c => Cert.KernelIdeal.Bridge.resultG m c, Cert.KernelIdeal.Bridge.kernel_run m ρ hpre, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v41_eq, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
